-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x336x96x176 : Shape := ⟨4, ![4, 336, 96, 176]⟩
abbrev S4x6x240x120 : Shape := ⟨4, ![4, 6, 240, 120]⟩
abbrev S_ : Shape := ⟨0, ![]⟩

class Facts : Prop where
  bcast_S_S4x336x96x176 : S_.BroadcastsInDim S4x336x96x176 (![] : Fin 0 → Fin S4x336x96x176.rank)
  reducesTo_S4x336x96x176_S_d0_1_2_3 : S4x336x96x176.ReducesTo [0, 1, 2, 3] S_
  h_S_ : 0 < S_.numel
  bcast_S_S4x6x240x120 : S_.BroadcastsInDim S4x6x240x120 (![] : Fin 0 → Fin S4x6x240x120.rank)
  reducesTo_S4x6x240x120_S_d0_1_2_3 : S4x6x240x120.ReducesTo [0, 1, 2, 3] S_

variable [Facts]

def fn_part1 {F : FTy → Type} [FloatOps F] (main_arg2 : IVec S4x6x240x120 32) (main_v15 : IVec S_ 1) (main_c_5 : IVec S_ 32) : IVec S_ 1 :=
  let main_v16 : IVec S4x6x240x120 32 := broadcastInDim S4x6x240x120 ![] bcast_S_S4x6x240x120 main_c_5
  let main_v17 : IVec S4x6x240x120 1 := cmpi .sge main_arg2 main_v16
  let main_c_6 : IVec S_ 32 := constantI S_ 32 96#32
  let main_v18 : IVec S4x6x240x120 32 := broadcastInDim S4x6x240x120 ![] bcast_S_S4x6x240x120 main_c_6
  let main_v19 : IVec S4x6x240x120 1 := cmpi .slt main_arg2 main_v18
  let main_v20 : IVec S4x6x240x120 1 := andi main_v17 main_v19
  let main_c_7 : IVec S_ 1 := constantI S_ 1 1#1
  let main_v21 : IVec S_ 1 := (fun x v => Host.reduce IntOp.andi x v reducesTo_S4x6x240x120_S_d0_1_2_3 h_S_) main_v20 main_c_7
  let main_v22 : IVec S_ 1 := andi main_v15 main_v21
  main_v22

def fn {F : FTy → Type} [FloatOps F] (main_arg0 : FVec F S4x336x96x176 .f32) (main_arg1 : IVec S4x6x240x120 32) (main_arg2 : IVec S4x6x240x120 32) (main_arg3 : IVec S4x6x240x120 32) (main_arg4 : FVec F S4x6x240x120 .f32) : IVec S_ 1 :=
  let main_v0 : FVec F S4x336x96x176 .f32 := Host.absf main_arg0
  let main_cst : FVec F S_ .f32 := constant S_ .f32 0x7F800000#32
  let main_v1 : FVec F S4x336x96x176 .f32 := broadcastInDim S4x336x96x176 ![] bcast_S_S4x336x96x176 main_cst
  let main_v2 : IVec S4x336x96x176 1 := cmpf .olt main_v0 main_v1
  let main_c : IVec S_ 1 := constantI S_ 1 1#1
  let main_v3 : IVec S_ 1 := (fun x v => Host.reduce IntOp.andi x v reducesTo_S4x336x96x176_S_d0_1_2_3 h_S_) main_v2 main_c
  let main_v4 : FVec F S4x6x240x120 .f32 := Host.absf main_arg4
  let main_cst_0 : FVec F S_ .f32 := constant S_ .f32 0x7F800000#32
  let main_v5 : FVec F S4x6x240x120 .f32 := broadcastInDim S4x6x240x120 ![] bcast_S_S4x6x240x120 main_cst_0
  let main_v6 : IVec S4x6x240x120 1 := cmpf .olt main_v4 main_v5
  let main_c_1 : IVec S_ 1 := constantI S_ 1 1#1
  let main_v7 : IVec S_ 1 := (fun x v => Host.reduce IntOp.andi x v reducesTo_S4x6x240x120_S_d0_1_2_3 h_S_) main_v6 main_c_1
  let main_v8 : IVec S_ 1 := andi main_v3 main_v7
  let main_c_2 : IVec S_ 32 := constantI S_ 32 0#32
  let main_v9 : IVec S4x6x240x120 32 := broadcastInDim S4x6x240x120 ![] bcast_S_S4x6x240x120 main_c_2
  let main_v10 : IVec S4x6x240x120 1 := cmpi .sge main_arg1 main_v9
  let main_c_3 : IVec S_ 32 := constantI S_ 32 176#32
  let main_v11 : IVec S4x6x240x120 32 := broadcastInDim S4x6x240x120 ![] bcast_S_S4x6x240x120 main_c_3
  let main_v12 : IVec S4x6x240x120 1 := cmpi .slt main_arg1 main_v11
  let main_v13 : IVec S4x6x240x120 1 := andi main_v10 main_v12
  let main_c_4 : IVec S_ 1 := constantI S_ 1 1#1
  let main_v14 : IVec S_ 1 := (fun x v => Host.reduce IntOp.andi x v reducesTo_S4x6x240x120_S_d0_1_2_3 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S4x336x96x176 : Shape := ⟨4, ![4, 336, 96, 176]⟩
abbrev S4x6x240x120 : Shape := ⟨4, ![4, 6, 240, 120]⟩
abbrev S4x336x16896 : Shape := ⟨3, ![4, 336, 16896]⟩
abbrev S_ : Shape := ⟨0, ![]⟩
abbrev S4x6x1x28800 : Shape := ⟨4, ![4, 6, 1, 28800]⟩
abbrev S6x336x28800 : Shape := ⟨3, ![6, 336, 28800]⟩
abbrev S1x336x1536 : Shape := ⟨3, ![1, 336, 1536]⟩
abbrev S1x1x1x1152 : Shape := ⟨4, ![1, 1, 1, 1152]⟩
abbrev S1x336x1152 : Shape := ⟨3, ![1, 336, 1152]⟩
abbrev S336x1152 : Shape := ⟨2, ![336, 1152]⟩
abbrev S1536x1152 : Shape := ⟨2, ![1536, 1152]⟩
abbrev S1x1152 : Shape := ⟨2, ![1, 1152]⟩
abbrev S336x1536 : Shape := ⟨2, ![336, 1536]⟩
abbrev S1x2016x240x120 : Shape := ⟨4, ![1, 2016, 240, 120]⟩

abbrev nBuf : Space → Nat
  | .hbm => 17
  | .vmem => 9
  | .smem => 0
  | _ => 0

abbrev bufTy : (tb : Table) → Fin (tcTables nBuf tb) → BufTy
  | .hbm, ⟨0, _⟩ => ⟨S4x336x96x176, .f32⟩
  | .hbm, ⟨1, _⟩ => ⟨S4x6x240x120, .i32⟩
  | .hbm, ⟨2, _⟩ => ⟨S4x6x240x120, .i32⟩
  | .hbm, ⟨3, _⟩ => ⟨S4x6x240x120, .i32⟩
  | .hbm, ⟨4, _⟩ => ⟨S4x6x240x120, .f32⟩
  | .hbm, ⟨5, _⟩ => ⟨S4x336x16896, .f32⟩
  | .hbm, ⟨6, _⟩ => ⟨S4x336x16896, .bf16⟩
  | .hbm, ⟨7, _⟩ => ⟨S_, .i32⟩
  | .hbm, ⟨8, _⟩ => ⟨S4x6x240x120, .i32⟩
  | .hbm, ⟨9, _⟩ => ⟨S4x6x240x120, .i32⟩
  | .hbm, ⟨10, _⟩ => ⟨S4x6x240x120, .i32⟩
  | .hbm, ⟨11, _⟩ => ⟨S4x6x1x28800, .i32⟩
  | .hbm, ⟨12, _⟩ => ⟨S4x6x240x120, .f32⟩
  | .hbm, ⟨13, _⟩ => ⟨S4x6x240x120, .f32⟩
  | .hbm, ⟨14, _⟩ => ⟨S4x6x1x28800, .f32⟩
  | .hbm, ⟨15, _⟩ => ⟨S6x336x28800, .f32⟩
  | .hbm, ⟨16, _⟩ => ⟨S1x2016x240x120, .f32⟩
  | .local _ .vmem, ⟨0, _⟩ => ⟨S1x336x1536, .bf16⟩
  | .local _ .vmem, ⟨1, _⟩ => ⟨S1x336x1536, .bf16⟩
  | .local _ .vmem, ⟨2, _⟩ => ⟨S1x1x1x1152, .i32⟩
  | .local _ .vmem, ⟨3, _⟩ => ⟨S1x1x1x1152, .i32⟩
  | .local _ .vmem, ⟨4, _⟩ => ⟨S1x1x1x1152, .f32⟩
  | .local _ .vmem, ⟨5, _⟩ => ⟨S1x1x1x1152, .f32⟩
  | .local _ .vmem, ⟨6, _⟩ => ⟨S1x336x1152, .f32⟩
  | .local _ .vmem, ⟨7, _⟩ => ⟨S1x336x1152, .f32⟩
  | .local _ .vmem, ⟨8, _⟩ => ⟨S336x1152, .f32⟩
  | _, _ => ⟨S4x336x96x176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![6, 25, 4, 11], ![false, false, false, false]⟩

def k0_cond2 (i : grid0.Coords) : BitVec 1 :=
  let arg2 : BitVec 32 := BitVec.ofNat 32 (i 2).val
  let c3_i32 : BitVec 32 := 3#32
  let v29 : BitVec 1 := Scalar.cmpi .eq arg2 c3_i32
  let arg3 : BitVec 32 := BitVec.ofNat 32 (i 3).val
  let c10_i32 : BitVec 32 := 10#32
  let v30 : BitVec 1 := Scalar.cmpi .eq arg3 c10_i32
  let v31 : BitVec 1 := Scalar.andi v29 v30
  let v32 : BitVec 32 := Scalar.extui v31
  let c0_i32_17 : BitVec 32 := 0#32
  let v33 : BitVec 1 := Scalar.cmpi .ne v32 c0_i32_17
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

abbrev stage0_0 : Fin 2 → Memref sig .tc .vmem S1x336x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x1x1x1152 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x336x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

class Facts₀ : Prop where
  shapeCasts_S4x336x96x176_S4x336x16896 : S4x336x96x176.ShapeCasts S4x336x16896
  bitsLt_bf16_f32 : FTy.bits .bf16 < FTy.bits .f32
  bcast_S_S4x6x240x120 : S_.BroadcastsInDim S4x6x240x120 (![] : Fin 0 → Fin S4x6x240x120.rank)
  shapeCasts_S4x6x240x120_S4x6x1x28800 : S4x6x240x120.ShapeCasts S4x6x1x28800
  inb_S336x1152_S336x1152_0_0 : ∀ a, (![0, 0] : Fin 2 → Nat) a + S336x1152.size a ≤ S336x1152.size a
  h_S336x1152 : 0 < S336x1152.numel
  shapeCasts_S336x1152_S336x1152 : S336x1152.ShapeCasts S336x1152
  iota_S1536x1152_d0_w32 : S1536x1152.Iotas .tc 32 [0]
  inb_S1x1x1x1152_S1x1x1x1152_0_0_0_0 : ∀ a, (![0, 0, 0, 0] : Fin 4 → Nat) a + S1x1x1x1152.size a ≤ S1x1x1x1152.size a
  h_S1x1x1x1152 : 0 < S1x1x1x1152.numel
  shapeCasts_S1x1x1x1152_S1x1152 : S1x1x1x1152.ShapeCasts S1x1152
  shapeCasts_S1x1152_S1x1152 : S1x1152.ShapeCasts S1x1152
  broadcasts_S1x1152_S1536x1152 : S1x1152.Broadcasts S1536x1152
  inb_S1x336x1536_S1x336x1536_0_0_0 : ∀ a, (![0, 0, 0] : Fin 3 → Nat) a + S1x336x1536.size a ≤ S1x336x1536.size a
  h_S1x336x1536 : 0 < S1x336x1536.numel
  shapeCasts_S1x336x1536_S336x1536 : S1x336x1536.ShapeCasts S336x1536
  inb_S1x336x1152_S1x336x1152_0_0_0 : ∀ a, (![0, 0, 0] : Fin 3 → Nat) a + S1x336x1152.size a ≤ S1x336x1152.size a
  h_S1x336x1152 : 0 < S1x336x1152.numel
  shapeCasts_S1x336x1152_S336x1152 : S1x336x1152.ShapeCasts S336x1152
  shapeCasts_S336x1152_S1x336x1152 : S336x1152.ShapeCasts S1x336x1152
  shapeCasts_S6x336x28800_S1x2016x240x120 : S6x336x28800.ShapeCasts S1x2016x240x120
  dot_S336x1536_S1536x1152_S336x1152_1_0_0_1_n_n_wf : DotDims.WF S336x1536 S1536x1152 S336x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x336x1536.size a ≤ S4x336x16896.size a
  hwx0_0 : ∀ i : grid0.Coords, EltTy.bits .bf16 = 32 ∨ (Rect.block (s := S4x336x16896) S1x336x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1152.size a ≤ S4x6x1x28800.size a
  hwx0_1 : ∀ i : grid0.Coords, EltTy.bits .i32 = 32 ∨ (Rect.block (s := S4x6x1x28800) S1x1x1x1152.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1152.size a ≤ S4x6x1x28800.size a
  hwx0_2 : ∀ i : grid0.Coords, EltTy.bits .f32 = 32 ∨ (Rect.block (s := S4x6x1x28800) S1x1x1x1152.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x336x1152.size a ≤ S6x336x28800.size a
  hwx0_3 : ∀ i : grid0.Coords, EltTy.bits .f32 = 32 ∨ (Rect.block (s := S6x336x28800) S1x336x1152.size (cc0_transform_3 i) (hinb0_3 i)).WholeWords (EltTy.packing .f32)

variable [Facts₀]

def dot_S336x1536_S1536x1152_S336x1152_1_0_0_1_n_n : DotDims S336x1536 S1536x1152 S336x1152 where
  lhsContracting := [1]
  rhsContracting := [0]
  lhsNonContracting := [0]
  rhsNonContracting := [1]
  lhsBatch := []
  rhsBatch := []
  wf := dot_S336x1536_S1536x1152_S336x1152_1_0_0_1_n_n_wf

abbrev win0_0 : Pipeline.Window sig grid0 :=
  Pipeline.Window.ofSpec (Memref.whole main_v1) S1x336x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x1x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x1x1152.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x336x1152.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x336x96x176 : Shape := ⟨4, ![4, 336, 96, 176]⟩
abbrev S4x6x240x120 : Shape := ⟨4, ![4, 6, 240, 120]⟩
abbrev S_ : Shape := ⟨0, ![]⟩
abbrev S4x6x240x120x1 : Shape := ⟨5, ![4, 6, 240, 120, 1]⟩
abbrev S4x6x240x120x2 : Shape := ⟨5, ![4, 6, 240, 120, 2]⟩
abbrev S4x336x6x240x120 : Shape := ⟨5, ![4, 336, 6, 240, 120]⟩
abbrev S4x1x6x240x120 : Shape := ⟨5, ![4, 1, 6, 240, 120]⟩
abbrev S336x6x240x120 : Shape := ⟨4, ![336, 6, 240, 120]⟩
abbrev S6x336x240x120 : Shape := ⟨4, ![6, 336, 240, 120]⟩
abbrev S1x2016x240x120 : Shape := ⟨4, ![1, 2016, 240, 120]⟩

abbrev nBuf : Space → Nat
  | .hbm => 32
  | .vmem => 0
  | .smem => 0
  | _ => 0

abbrev bufTy : (tb : Table) → Fin (tcTables nBuf tb) → BufTy
  | .hbm, ⟨0, _⟩ => ⟨S4x336x96x176, .f32⟩
  | .hbm, ⟨1, _⟩ => ⟨S4x6x240x120, .i32⟩
  | .hbm, ⟨2, _⟩ => ⟨S4x6x240x120, .i32⟩
  | .hbm, ⟨3, _⟩ => ⟨S4x6x240x120, .i32⟩
  | .hbm, ⟨4, _⟩ => ⟨S4x6x240x120, .f32⟩
  | .hbm, ⟨5, _⟩ => ⟨S_, .i32⟩
  | .hbm, ⟨6, _⟩ => ⟨S4x6x240x120, .i32⟩
  | .hbm, ⟨7, _⟩ => ⟨S4x6x240x120, .i1⟩
  | .hbm, ⟨8, _⟩ => ⟨S_, .i32⟩
  | .hbm, ⟨9, _⟩ => ⟨S4x6x240x120, .i32⟩
  | .hbm, ⟨10, _⟩ => ⟨S4x6x240x120, .i32⟩
  | .hbm, ⟨11, _⟩ => ⟨S4x6x240x120, .i32⟩
  | .hbm, ⟨12, _⟩ => ⟨S_, .i32⟩
  | .hbm, ⟨13, _⟩ => ⟨S4x6x240x120, .i32⟩
  | .hbm, ⟨14, _⟩ => ⟨S4x6x240x120, .i1⟩
  | .hbm, ⟨15, _⟩ => ⟨S_, .i32⟩
  | .hbm, ⟨16, _⟩ => ⟨S4x6x240x120, .i32⟩
  | .hbm, ⟨17, _⟩ => ⟨S4x6x240x120, .i32⟩
  | .hbm, ⟨18, _⟩ => ⟨S4x6x240x120, .i32⟩
  | .hbm, ⟨19, _⟩ => ⟨S4x6x240x120x1, .i32⟩
  | .hbm, ⟨20, _⟩ => ⟨S4x6x240x120x1, .i32⟩
  | .hbm, ⟨21, _⟩ => ⟨S4x6x240x120x2, .i32⟩
  | .hbm, ⟨22, _⟩ => ⟨S4x336x6x240x120, .f32⟩
  | .hbm, ⟨23, _⟩ => ⟨S4x6x240x120, .f32⟩
  | .hbm, ⟨24, _⟩ => ⟨S4x6x240x120, .f32⟩
  | .hbm, ⟨25, _⟩ => ⟨S4x1x6x240x120, .f32⟩
  | .hbm, ⟨26, _⟩ => ⟨S4x336x6x240x120, .f32⟩
  | .hbm, ⟨27, _⟩ => ⟨S4x336x6x240x120, .f32⟩
  | .hbm, ⟨28, _⟩ => ⟨S_, .f32⟩
  | .hbm, ⟨29, _⟩ => ⟨S336x6x240x120, .f32⟩
  | .hbm, ⟨30, _⟩ => ⟨S6x336x240x120, .f32⟩
  | .hbm, ⟨31, _⟩ => ⟨S1x2016x240x120, .f32⟩
  | _, _ => ⟨S4x336x96x176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S4x6x240x120 : S_.BroadcastsInDim S4x6x240x120 (![] : Fin 0 → Fin S4x6x240x120.rank)
  bcast_S4x6x240x120_S4x6x240x120x1_0_1_2_3 : S4x6x240x120.BroadcastsInDim S4x6x240x120x1 (![0, 1, 2, 3] : Fin 4 → Fin S4x6x240x120x1.rank)
  concatenates_S4x6x240x120x1_S4x6x240x120x1_S4x6x240x120x2_d4 : Shape.Concatenates [S4x6x240x120x1, S4x6x240x120x1] S4x6x240x120x2 4
  bcast_S4x6x240x120_S4x1x6x240x120_0_2_3_4 : S4x6x240x120.BroadcastsInDim S4x1x6x240x120 (![0, 2, 3, 4] : Fin 4 → Fin S4x1x6x240x120.rank)
  bcast_S4x1x6x240x120_S4x336x6x240x120_0_1_2_3_4 : S4x1x6x240x120.BroadcastsInDim S4x336x6x240x120 (![0, 1, 2, 3, 4] : Fin 5 → Fin S4x336x6x240x120.rank)
  reducesTo_S4x336x6x240x120_S336x6x240x120_d0 : S4x336x6x240x120.ReducesTo [0] S336x6x240x120
  h_S_ : 0 < S_.numel
  transposes_S336x6x240x120_S6x336x240x120_1_0_2_3 : S336x6x240x120.Transposes [1, 0, 2, 3] S6x336x240x120
  shapeCasts_S6x336x240x120_S1x2016x240x120 : S6x336x240x120.ShapeCasts S1x2016x240x120
  gather_S4x336x96x176_S4x6x240x120x2_S4x336x6x240x120_1_23_0_0_23_4_133611_wf : GatherDims.WF S4x336x96x176 S4x6x240x120x2 S4x336x6x240x120 [1] [2, 3] [0] [2, 3] [0] 4 ![1, 336, 1, 1]

variable [Facts₀]

def gather_S4x336x96x176_S4x6x240x120x2_S4x336x6x240x120_1_23_0_0_23_4_133611 : GatherDims S4x336x96x176 S4x6x240x120x2 S4x336x6x240x120 where
  offsetDims := [1]
  collapsedSliceDims := [2, 3]
  operandBatchingDims := [0]
  startIndicesBatchingDims := [0]
  startIndexMap := [2, 3]
  indexVectorDim := 4
  sliceSizes := ![1, 336, 1, 1]
  wf := gather_S4x336x96x176_S4x6x240x120x2_S4x336x6x240x120_1_23_0_0_23_4_133611_wf

class Facts : Prop extends Facts₀ where

variable [Facts]
-- ==== Proof.PreRange.lean ====
/-
  What the precondition says of the two index arrays: every column word u lies in [0, 176) and every row word v in
  [0, 96). The printed predicate compares each word, as a SIGNED word, with 0 and with the extent, takes the
  conjunction over the whole array and conjoins the results; a word that is non-negative as a signed word is below
  2³¹ as a natural number, and then the signed comparison with the extent is the comparison of the natural numbers.
-/
import proofs.«413295_j31258771980988_3_alg».proof.Pre_finite_inputs
import Idealize.ShloMosaic.Lib.ReduceAll
import Idealize.ShloMosaic.Lib.StableHlo.Predicate
import Idealize.ShloMosaic.Lib.ValueIdx

noncomputable section

namespace Cert.VoxelProj.PreRange

open Idealize.ShloMosaic Idealize.ShloMosaic.ValueIdx

/-- The scalar shape has one index. -/
instance : Subsingleton Cert.Pre_finite_inputs.S_.Idx := ⟨fun _ _ => funext fun d => d.elim0⟩

/-- A word at least 0 and below a small bound, both as signed words, is below the bound as a natural number. -/
theorem toNat_lt_of_signed (w b : BitVec 32) (hb : b.toNat < 2 ^ 31)
    (h0 : IntOp.cmpi .sge w 0#32 = 1#1) (h1 : IntOp.cmpi .slt w b = 1#1) : w.toNat < b.toNat := by
  have hw : w.toNat < 2 ^ 31 := by
    unfold IntOp.cmpi at h0
    rw [StableHlo.Predicate.ofBool_eq_one_iff] at h0
    simp only [BitVec.sle, decide_eq_true_eq] at h0
    have h00 : (0#32 : BitVec 32).toInt = 0 := by decide
    rw [h00, BitVec.toInt_eq_toNat_cond] at h0
    have := w.isLt
    split at h0 <;> omega
  exact (StableHlo.Predicate.slt_iff_toNat hw hb).mp h1

/-- THE PRECONDITION AT A VOXEL AND CAMERA: the column word is a column and the row word a row. -/
theorem range_of_pre [Cert.Pre_finite_inputs.Facts] {F : FTy → Type} [FloatOps F]
    (a0 : FVec F Cert.Pre_finite_inputs.S4x336x96x176 .f32) (a1 a2 a3 : IVec Cert.Pre_finite_inputs.S4x6x240x120 32)
    (a4 : FVec F Cert.Pre_finite_inputs.S4x6x240x120 .f32)
    (h : Cert.Pre_finite_inputs.fn (F := F) a0 a1 a2 a3 a4 = fun _ => 1#1)
    (i : Cert.Pre_finite_inputs.S4x6x240x120.Idx) : (a1 i).toNat < 176 ∧ (a2 i).toNat < 96 := by
  have e := congrFun h ix0
  unfold Cert.Pre_finite_inputs.fn Cert.Pre_finite_inputs.fn_part1 at e
  dsimp only at e
  simp only [andi] at e
  obtain ⟨e15, e21⟩ := IntOp.andi_eq_one.mp e
  obtain ⟨-, e14⟩ := IntOp.andi_eq_one.mp e15
  have hu := Host.reduce_andi_all _ _ _ _ _ e14 i
  have hv := Host.reduce_andi_all _ _ _ _ _ e21 i
  simp only [andi, cmpi, broadcastInDim, constantI] at hu hv
  obtain ⟨hu0, hu1⟩ := IntOp.andi_eq_one.mp hu
  obtain ⟨hv0, hv1⟩ := IntOp.andi_eq_one.mp hv
  exact ⟨toNat_lt_of_signed _ _ (by decide) hu0 hu1, toNat_lt_of_signed _ _ (by decide) hv0 hv1⟩

end Cert.VoxelProj.PreRange

end
-- ==== Proof.Spec.lean ====
/-
  The projection as mathematics, apart from either program.

  A voxel (d, hb, wb) sees camera n's feature map at the pixel (v, u) its two index words name, and the result at
  channel c is the sum over the four cameras of that pixel's feature times the camera's weight at the voxel:
      proj d c hb wb = ∑ n, x[n, c, v[n,d,hb,wb], u[n,d,hb,wb]] · wt[n,d,hb,wb].
  The kernel does not index: it flattens the pixel to j = v·176 + u, cuts the flattened map into eleven tiles of 1536
  columns, and multiplies each tile by a selector matrix whose column for the voxel holds the weight in row j and zero
  elsewhere. Summed over the tiles and the rows this is the one term at j (`onehot_collapse`): every other product is a
  feature times zero, which is zero for every extended real, so no finiteness is used. The sum over a group's 44 grid
  points is the sum over cameras and tiles (`sum_range_44`).
-/
import Idealize.ShloMosaic.PureOps.Ideal
import Idealize.ShloMosaic.Lib.ValueIdx

noncomputable section

open scoped BigOperators

namespace Cert.VoxelProj

open Idealize.ShloMosaic Idealize.ShloMosaic.ValueIdx

/-- A word read as a row of the 96-row feature map (a word past the last row reads the last row). -/
def rowOf (w : BitVec 32) : Fin 96 := ⟨min w.toNat 95, by omega⟩
/-- A word read as a column of the 176-column feature map. -/
def colOf (w : BitVec 32) : Fin 176 := ⟨min w.toNat 175, by omega⟩

theorem rowOf_val {w : BitVec 32} (h : w.toNat < 96) : (rowOf w).val = w.toNat := by
  show min w.toNat 95 = w.toNat; omega
theorem colOf_val {w : BitVec 32} (h : w.toNat < 176) : (colOf w).val = w.toNat := by
  show min w.toNat 175 = w.toNat; omega

/-- The projected feature at voxel (d, hb, wb), channel c: over the cameras, the feature at the named pixel times the weight. -/
def proj (x : FVec Ideal ⟨4, ![4, 336, 96, 176]⟩ .f32) (u v : IVec ⟨4, ![4, 6, 240, 120]⟩ 32)
    (wt : FVec Ideal ⟨4, ![4, 6, 240, 120]⟩ .f32) (d : Fin 6) (c : Fin 336) (hb : Fin 240) (wb : Fin 120) : EReal :=
  ∑ n : Fin 4, x (ix4 n c (rowOf (v (ix4 n d hb wb))) (colOf (u (ix4 n d hb wb)))) * wt (ix4 n d hb wb)

/-- The result array [1, 2016, 240, 120]: channel e = d·336 + c of the output is depth d, feature channel c. -/
def G (x : FVec Ideal ⟨4, ![4, 336, 96, 176]⟩ .f32) (u v : IVec ⟨4, ![4, 6, 240, 120]⟩ 32)
    (wt : FVec Ideal ⟨4, ![4, 6, 240, 120]⟩ .f32) : FVec Ideal ⟨4, ![1, 2016, 240, 120]⟩ .f32 := fun i =>
  proj x u v wt ⟨(i 1).val / 336, by have h : (i 1).val < 2016 := (i 1).isLt; omega⟩
    ⟨(i 1).val % 336, Nat.mod_lt _ (by decide)⟩ ⟨(i 2).val, (i 2).isLt⟩ ⟨(i 3).val, (i 3).isLt⟩

/-- The same values laid out as the kernel writes them, [6, 336, 28800]: voxel position hb·120 + wb flattened. -/
def G9 (x : FVec Ideal ⟨4, ![4, 336, 96, 176]⟩ .f32) (u v : IVec ⟨4, ![4, 6, 240, 120]⟩ 32)
    (wt : FVec Ideal ⟨4, ![4, 6, 240, 120]⟩ .f32) : FVec Ideal ⟨3, ![6, 336, 28800]⟩ .f32 := fun i =>
  proj x u v wt ⟨(i 0).val, (i 0).isLt⟩ ⟨(i 1).val, (i 1).isLt⟩
    ⟨(i 2).val / 120, by have h : (i 2).val < 28800 := (i 2).isLt; omega⟩ ⟨(i 2).val % 120, Nat.mod_lt _ (by decide)⟩

/-- The kernel-layout value at an index, by the index's coordinates. -/
theorem G9_eq (x : FVec Ideal ⟨4, ![4, 336, 96, 176]⟩ .f32) (u v : IVec ⟨4, ![4, 6, 240, 120]⟩ 32)
    (wt : FVec Ideal ⟨4, ![4, 6, 240, 120]⟩ .f32) (i : (⟨3, ![6, 336, 28800]⟩ : Shape).Idx)
    (d : Fin 6) (c : Fin 336) (hb : Fin 240) (wb : Fin 120)
    (h0 : d.val = (i 0).val) (h1 : c.val = (i 1).val) (h2 : hb.val = (i 2).val / 120) (h3 : wb.val = (i 2).val % 120) :
    G9 x u v wt i = proj x u v wt d c hb wb := by
  unfold G9
  congr 1
  · exact Fin.ext h0.symm
  · exact Fin.ext h1.symm
  · exact Fin.ext h2.symm
  · exact Fin.ext h3.symm

/-- The result value at an index, by the index's coordinates. -/
theorem G_eq (x : FVec Ideal ⟨4, ![4, 336, 96, 176]⟩ .f32) (u v : IVec ⟨4, ![4, 6, 240, 120]⟩ 32)
    (wt : FVec Ideal ⟨4, ![4, 6, 240, 120]⟩ .f32) (i : (⟨4, ![1, 2016, 240, 120]⟩ : Shape).Idx)
    (d : Fin 6) (c : Fin 336) (hb : Fin 240) (wb : Fin 120)
    (h0 : d.val = (i 1).val / 336) (h1 : c.val = (i 1).val % 336) (h2 : hb.val = (i 2).val) (h3 : wb.val = (i 3).val) :
    G x u v wt i = proj x u v wt d c hb wb := by
  unfold G
  congr 1
  · exact Fin.ext h0.symm
  · exact Fin.ext h1.symm
  · exact Fin.ext h2.symm
  · exact Fin.ext h3.symm

/-- THE SELECTOR SUM. Over eleven tiles of 1536 columns, a row f of the flattened map against the selector column
    that holds w at position J and zero elsewhere sums to f J · w. -/
theorem onehot_collapse (f : ℕ → EReal) (w : EReal) (J : ℕ) (hJ : J < 16896) :
    ∑ h : Fin 11, ∑ k : Fin 1536, f (h.val * 1536 + k.val) * (if h.val * 1536 + k.val = J then w else 0) = f J * w := by
  have hh : J / 1536 < 11 := by omega
  have hk : J % 1536 < 1536 := Nat.mod_lt _ (by decide)
  rw [Finset.sum_eq_single (⟨J / 1536, hh⟩ : Fin 11)]
  · rw [Finset.sum_eq_single (⟨J % 1536, hk⟩ : Fin 1536)]
    · have e : J / 1536 * 1536 + J % 1536 = J := by omega
      simp only [e, if_true]
    · intro k _ hne
      have : ¬ (J / 1536 * 1536 + k.val = J) := fun e => hne (Fin.ext (by show k.val = J % 1536; omega))
      simp only [this, if_false, mul_zero]
    · intro h; exact absurd (Finset.mem_univ _) h
  · intro h _ hne
    refine Finset.sum_eq_zero fun k _ => ?_
    have hkk := k.isLt
    have : ¬ (h.val * 1536 + k.val = J) := fun e => hne (Fin.ext (by show h.val = J / 1536; omega))
    simp only [this, if_false, mul_zero]
  · intro h; exact absurd (Finset.mem_univ _) h

/-- A sum over the 44 points of a group is the sum over the four cameras and the eleven tiles: point s is camera
    s / 11, tile s % 11. -/
theorem sum_range_44 (f : ℕ → EReal) :
    ∑ s ∈ Finset.range 44, f s = ∑ n : Fin 4, ∑ h : Fin 11, f (n.val * 11 + h.val) := by
  rw [Finset.sum_range, ← Fintype.sum_prod_type']
  refine (Equiv.sum_comp (finProdFinEquiv (m := 4) (n := 11)) (fun i => f i.val)).symm.trans ?_
  refine Finset.sum_congr rfl fun p _ => ?_
  show f (p.2.val + 11 * p.1.val) = f (p.1.val * 11 + p.2.val)
  congr 1; omega

end Cert.VoxelProj

end
-- ==== Proof.GatherAt.lean ====
/-
  The reference's pixel gather read at an index.

  `feat[:, v, u]` under the camera batch is one `stablehlo.gather`: the operand [4, 336, 96, 176] (camera, channel,
  row, column), the start indices [4, 6, 240, 120, 2] (camera, voxel, then the pair (row word, column word)), the
  result [4, 336, 6, 240, 120]. The camera axis is a batching axis of both, the channel axis is the one offset axis
  (the whole axis is the slice), the row and column axes are collapsed and named by the start index's two components.
  So the result at (n, c, d, hb, wb) is the operand at camera n, channel c, and the row and column the two words at
  (n, d, hb, wb) name, each read as a signed word and clamped into its axis, as StableHLO's gather clamps.
-/
import Idealize.ShloMosaic.PureOps
import Idealize.ShloMosaic.Lib.ValueIdx

noncomputable section

namespace Cert.VoxelProj

open Idealize.ShloMosaic Idealize.ShloMosaic.ValueIdx

/-- The pixel gather's dimension numbers over the literal shapes; their conditions are decided on a program's shapes. -/
abbrev pixDims (wf : GatherDims.WF ⟨4, ![4, 336, 96, 176]⟩ ⟨5, ![4, 6, 240, 120, 2]⟩ ⟨5, ![4, 336, 6, 240, 120]⟩
      [1] [2, 3] [0] [2, 3] [0] 4 ![1, 336, 1, 1]) :
    GatherDims ⟨4, ![4, 336, 96, 176]⟩ ⟨5, ![4, 6, 240, 120, 2]⟩ ⟨5, ![4, 336, 6, 240, 120]⟩ where
  offsetDims := [1]
  collapsedSliceDims := [2, 3]
  operandBatchingDims := [0]
  startIndicesBatchingDims := [0]
  startIndexMap := [2, 3]
  indexVectorDim := 4
  sliceSizes := ![1, 336, 1, 1]
  wf := wf

section Axes

variable {w : Nat} (wf : GatherDims.WF ⟨4, ![4, 336, 96, 176]⟩ ⟨5, ![4, 6, 240, 120, 2]⟩ ⟨5, ![4, 336, 6, 240, 120]⟩
      [1] [2, 3] [0] [2, 3] [0] 4 ![1, 336, 1, 1]) (idx : IVec ⟨5, ![4, 6, 240, 120, 2]⟩ w)
    (n : Fin 4) (c : Fin 336) (d : Fin 6) (hb : Fin 240) (wb : Fin 120)

/-- The camera axis is batching: no start, no offset, the result's camera. -/
theorem opIdx_cam : ((pixDims wf).operandIdx (ix5 n c d hb wb) idx (0 : Fin 4)).val = n.val := by
  show (pixDims wf).start (ix5 n c d hb wb) idx 0 + (pixDims wf).batchCoord (ix5 n c d hb wb) 0
      + (pixDims wf).offCoord (ix5 n c d hb wb) 0 = _
  rw [GatherDims.start_batching _ _ _ _ (List.mem_singleton.mpr rfl),
    GatherDims.offCoord_eq_zero _ _ _ (fun h => ((GatherDims.mem_sKept _ _).mp h).2 (List.mem_singleton.mpr rfl))]
  unfold GatherDims.batchCoord
  rw [dif_pos (List.mem_singleton.mpr rfl), Nat.zero_add, Nat.add_zero]
  rfl

/-- The channel axis is the offset axis: no start, no batch, the result's channel. -/
theorem opIdx_chan : ((pixDims wf).operandIdx (ix5 n c d hb wb) idx (1 : Fin 4)).val = c.val := by
  show (pixDims wf).start (ix5 n c d hb wb) idx 1 + (pixDims wf).batchCoord (ix5 n c d hb wb) 1
      + (pixDims wf).offCoord (ix5 n c d hb wb) 1 = _
  rw [GatherDims.batchCoord_eq_zero _ _ _ (by simp [pixDims])]
  unfold GatherDims.start
  rw [dif_neg (by simp [pixDims])]
  unfold GatherDims.offCoord
  have hm : (1 : Fin 4) ∈ (pixDims wf).sKept := (GatherDims.mem_sKept _ _).mpr ⟨by simp [pixDims], by simp [pixDims]⟩
  rw [dif_pos hm, Nat.zero_add]
  rfl

/-- The start index read for component k of voxel (n, d, hb, wb) is the start-indices array at (n, d, hb, wb, k). -/
theorem siIdx_eq (k : Fin 2) : (pixDims wf).siIdx (ix5 n c d hb wb) k = ix5 n d hb wb k := by
  funext b; refine Fin.ext ?_
  match b with
  | ⟨0, _⟩ => rfl
  | ⟨1, _⟩ => rfl
  | ⟨2, _⟩ => rfl
  | ⟨3, _⟩ => rfl
  | ⟨4, _⟩ => rfl

/-- The row axis is collapsed and named by the start index's first component, clamped into the 96 rows. -/
theorem opIdx_row : ((pixDims wf).operandIdx (ix5 n c d hb wb) idx (2 : Fin 4)).val
    = min (idx (ix5 n d hb wb (0 : Fin 2))).toInt.toNat 95 := by
  show (pixDims wf).start (ix5 n c d hb wb) idx 2 + (pixDims wf).batchCoord (ix5 n c d hb wb) 2
      + (pixDims wf).offCoord (ix5 n c d hb wb) 2 = _
  rw [GatherDims.batchCoord_eq_zero _ _ _ (by simp [pixDims]),
    GatherDims.offCoord_eq_zero _ _ _ (fun h => ((GatherDims.mem_sKept _ _).mp h).1 (by simp [pixDims]))]
  unfold GatherDims.start
  have hm : (2 : Fin 4) ∈ (pixDims wf).startIndexMap := by simp [pixDims]
  rw [dif_pos hm]
  have hsi := siIdx_eq wf n c d hb wb ⟨List.idxOf (2 : Fin 4) (pixDims wf).startIndexMap, List.idxOf_lt_length_iff.2 hm⟩
  rw [hsi]
  rfl

/-- The column axis likewise, by the second component, clamped into the 176 columns. -/
theorem opIdx_col : ((pixDims wf).operandIdx (ix5 n c d hb wb) idx (3 : Fin 4)).val
    = min (idx (ix5 n d hb wb (1 : Fin 2))).toInt.toNat 175 := by
  show (pixDims wf).start (ix5 n c d hb wb) idx 3 + (pixDims wf).batchCoord (ix5 n c d hb wb) 3
      + (pixDims wf).offCoord (ix5 n c d hb wb) 3 = _
  rw [GatherDims.batchCoord_eq_zero _ _ _ (by simp [pixDims]),
    GatherDims.offCoord_eq_zero _ _ _ (fun h => ((GatherDims.mem_sKept _ _).mp h).1 (by simp [pixDims]))]
  unfold GatherDims.start
  have hm : (3 : Fin 4) ∈ (pixDims wf).startIndexMap := by simp [pixDims]
  rw [dif_pos hm]
  have hsi := siIdx_eq wf n c d hb wb ⟨List.idxOf (3 : Fin 4) (pixDims wf).startIndexMap, List.idxOf_lt_length_iff.2 hm⟩
  rw [hsi]
  rfl

end Axes

/-- THE PIXEL GATHER READ AT (n, c, d, hb, wb). -/
theorem pixGather_apply {α : Type} {w : Nat}
    (wf : GatherDims.WF ⟨4, ![4, 336, 96, 176]⟩ ⟨5, ![4, 6, 240, 120, 2]⟩ ⟨5, ![4, 336, 6, 240, 120]⟩
      [1] [2, 3] [0] [2, 3] [0] 4 ![1, 336, 1, 1])
    (x : (⟨4, ![4, 336, 96, 176]⟩ : Shape).Idx → α) (idx : IVec ⟨5, ![4, 6, 240, 120, 2]⟩ w)
    (n : Fin 4) (c : Fin 336) (d : Fin 6) (hb : Fin 240) (wb : Fin 120) :
    Host.gather (pixDims wf) x idx (ix5 n c d hb wb)
      = x (ix4 n c ⟨min (idx (ix5 n d hb wb (0 : Fin 2))).toInt.toNat 95, by omega⟩
                   ⟨min (idx (ix5 n d hb wb (1 : Fin 2))).toInt.toNat 175, by omega⟩) := by
  unfold Host.gather
  congr 1
  funext a
  refine Fin.ext ?_
  match a with
  | ⟨0, _⟩ => exact opIdx_cam wf idx n c d hb wb
  | ⟨1, _⟩ => exact opIdx_chan wf idx n c d hb wb
  | ⟨2, _⟩ => exact opIdx_row wf idx n c d hb wb
  | ⟨3, _⟩ => exact opIdx_col wf idx n c d hb wb

end Cert.VoxelProj

end
-- ==== Proof.Layout.lean ====
/-
  The reshapes of this kernel read at an index. Each is a row-major re-indexing: a pixel (row, column) of the
  96 × 176 map is position row·176 + column of the flattened map; a voxel (hb, wb) of the 240 × 120 grid is position
  hb·120 + wb of the flattened grid; output channel e = d·336 + c is depth d, feature channel c; and three leading
  unit axes dropped change nothing.
-/
import Idealize.ShloMosaic.Lib.Pipeline.Value
import Idealize.ShloMosaic.Lib.ValueIdx

noncomputable section

namespace Cert.VoxelProj

open Idealize.ShloMosaic Idealize.ShloMosaic.ValueIdx Idealize.ShloMosaic.Pipeline

variable {α : Type}

/-- The feature map flattened: position j of the 16896 is pixel (j / 176, j % 176). -/
theorem flatPix_apply (x : (⟨4, ![4, 336, 96, 176]⟩ : Shape).Idx → α)
    (h : (⟨4, ![4, 336, 96, 176]⟩ : Shape).ShapeCasts ⟨3, ![4, 336, 16896]⟩) (n : Fin 4) (c : Fin 336) (j : Fin 16896) :
    shapeCast ⟨3, ![4, 336, 16896]⟩ x h (ix3 n c j)
      = x (ix4 n c ⟨j.val / 176, by omega⟩ ⟨j.val % 176, Nat.mod_lt _ (by decide)⟩) :=
  shapeCast_apply x h _ _ (by
    rw [Shape.rowMajor_val_four, Shape.rowMajor_val_three]
    show ((n.val * 336 + c.val) * 96 + j.val / 176) * 176 + j.val % 176 = (n.val * 336 + c.val) * 16896 + j.val
    omega)

/-- The voxel grid flattened behind a unit axis: position Q of the 28800 is voxel (Q / 120, Q % 120). -/
theorem flatVox_apply (x : (⟨4, ![4, 6, 240, 120]⟩ : Shape).Idx → α)
    (h : (⟨4, ![4, 6, 240, 120]⟩ : Shape).ShapeCasts ⟨4, ![4, 6, 1, 28800]⟩) (n : Fin 4) (d : Fin 6) (z : Fin 1) (Q : Fin 28800) :
    shapeCast ⟨4, ![4, 6, 1, 28800]⟩ x h (ix4 n d z Q)
      = x (ix4 n d ⟨Q.val / 120, by omega⟩ ⟨Q.val % 120, Nat.mod_lt _ (by decide)⟩) :=
  shapeCast_apply x h _ _ (by
    have hz : z.val = 0 := by omega
    rw [Shape.rowMajor_val_four, Shape.rowMajor_val_four]
    show ((n.val * 6 + d.val) * 240 + Q.val / 120) * 120 + Q.val % 120 = ((n.val * 6 + d.val) * 1 + z.val) * 28800 + Q.val
    rw [hz]; omega)

/-- The result unflattened: channel e of the 2016 is (depth e / 336, feature channel e % 336), voxel (hb, wb) is
    position hb·120 + wb. -/
theorem outCast_apply (x : (⟨3, ![6, 336, 28800]⟩ : Shape).Idx → α)
    (h : (⟨3, ![6, 336, 28800]⟩ : Shape).ShapeCasts ⟨4, ![1, 2016, 240, 120]⟩) (z : Fin 1) (e : Fin 2016) (hb : Fin 240) (wb : Fin 120) :
    shapeCast ⟨4, ![1, 2016, 240, 120]⟩ x h (ix4 z e hb wb)
      = x (ix3 ⟨e.val / 336, by omega⟩ ⟨e.val % 336, Nat.mod_lt _ (by decide)⟩ ⟨hb.val * 120 + wb.val, by omega⟩) :=
  shapeCast_apply x h _ _ (by
    have hz : z.val = 0 := by omega
    rw [Shape.rowMajor_val_three, Shape.rowMajor_val_four]
    show (e.val / 336 * 336 + e.val % 336) * 28800 + (hb.val * 120 + wb.val) = ((z.val * 2016 + e.val) * 240 + hb.val) * 120 + wb.val
    rw [hz]; omega)

/-- Three leading unit axes dropped but one: a [1, 1, 1, b] block as a [1, b] row. -/
theorem row_of_111b_apply {b : ℕ} (x : (⟨4, ![1, 1, 1, b]⟩ : Shape).Idx → α)
    (h : (⟨4, ![1, 1, 1, b]⟩ : Shape).ShapeCasts ⟨2, ![1, b]⟩) (z : Fin 1) (q : Fin b) :
    shapeCast ⟨2, ![1, b]⟩ x h (ix2 z q) = x (ix4 (0 : Fin 1) (0 : Fin 1) (0 : Fin 1) q) :=
  shapeCast_apply x h _ _ (by
    have hz : z.val = 0 := by omega
    rw [Shape.rowMajor_val_four, Shape.rowMajor_val_two]
    show ((0 * 1 + 0) * 1 + 0) * b + q.val = z.val * b + q.val
    rw [hz])

end Cert.VoxelProj

end
-- ==== Proof.Words.lean ====
/-
  The 32-bit word arithmetic of the two programs on in-range indices. Nothing wraps: a tile position h·1536 + k is
  below 16896, a flattened pixel v·176 + u with v < 96 and u < 176 is below 16896, and a word below 2³¹ is not negative
  as a signed word, so the reference's "add the extent to a negative index" leaves it alone and its signed reading is
  its value.
-/
import Idealize.ShloMosaic.PureOps
import Idealize.ShloMosaic.Lib.StableHlo.Predicate

noncomputable section

namespace Cert.VoxelProj

open Idealize.ShloMosaic

/-- Position k of tile h, computed in words, is the word of h·1536 + k. -/
theorem tile_word_eq (h k : ℕ) (hh : h < 11) (hk : k < 1536) :
    BitVec.ofNat 32 h * 1536#32 + BitVec.ofNat 32 k = BitVec.ofNat 32 (h * 1536 + k) := by
  apply BitVec.eq_of_toNat_eq
  simp only [BitVec.toNat_add, BitVec.toNat_mul, BitVec.toNat_ofNat]
  omega

/-- So it equals a word exactly when the position is the word's value. -/
theorem tile_word_iff (h k : ℕ) (hh : h < 11) (hk : k < 1536) (qw : BitVec 32) :
    BitVec.ofNat 32 h * 1536#32 + BitVec.ofNat 32 k = qw ↔ h * 1536 + k = qw.toNat := by
  rw [tile_word_eq h k hh hk]
  constructor
  · intro e; rw [← e, BitVec.toNat_ofNat]; omega
  · intro e; apply BitVec.eq_of_toNat_eq; rw [BitVec.toNat_ofNat, ← e]; omega

/-- The flattened pixel word of a row word and a column word in range is row·176 + column. -/
theorem flat_word_toNat (v u : BitVec 32) (hv : v.toNat < 96) (hu : u.toNat < 176) :
    (v * 176#32 + u).toNat = v.toNat * 176 + u.toNat := by
  simp only [BitVec.toNat_add, BitVec.toNat_mul, BitVec.toNat_ofNat]
  omega

/-- A word below 2³¹ is not below zero as a signed word. -/
theorem not_slt_zero (w : BitVec 32) (hw : w.toNat < 2 ^ 31) : IntOp.cmpi .slt w 0#32 ≠ 1#1 := fun h => by
  have := (StableHlo.Predicate.slt_iff_toNat hw (by decide)).mp h
  simp at this

/-- So the reference's wrap of a negative index leaves it alone. -/
theorem wrap_id (w b : BitVec 32) (hw : w.toNat < 2 ^ 31) :
    Scalar.select (IntOp.cmpi .slt w 0#32) (IntOp.addi w b) w = w := by
  unfold Scalar.select
  exact if_neg (not_slt_zero w hw)

/-- And its signed reading, as a natural number, is its value. -/
theorem toInt_toNat (w : BitVec 32) (hw : w.toNat < 2 ^ 31) : w.toInt.toNat = w.toNat := by
  rw [StableHlo.Predicate.toInt_eq_toNat_of_lt hw]; rfl

end Cert.VoxelProj

end
-- ==== Proof.RefSide.lean ====
/-
  The reference computes the projection.

  Its program wraps a negative index word by the axis's extent, pairs the row and column words, gathers the pixel
  (each word read signed and clamped into its axis), multiplies by the weight valid · density laid along the channel
  axis, sums over the four cameras from zero, and lays the result out as [1, 6·336, 240, 120]. On index words in
  range the wrap and the clamp are the identity, so the value at output channel e, voxel (hb, wb) is
  ∑ n, x[n, e % 336, v, u] · wt[n, e / 336, hb, wb]: the specification.
-/
import proofs.«413295_j31258771980988_3_alg».proof.Proof.Gen.ReferenceIdeal.Run
import proofs.«413295_j31258771980988_3_alg».proof.Proof.Gen.ReferenceIdeal.Read
import proofs.«413295_j31258771980988_3_alg».proof.Proof.Spec
import proofs.«413295_j31258771980988_3_alg».proof.Proof.GatherAt
import proofs.«413295_j31258771980988_3_alg».proof.Proof.Layout
import proofs.«413295_j31258771980988_3_alg».proof.Proof.Words

noncomputable section

open scoped BigOperators

namespace Cert.VoxelProj.Ref

open Cert.ReferenceIdeal Cert.ReferenceIdeal.Gen Idealize.ShloMosaic Idealize.ShloMosaic.ValueIdx

/-- The reshape and then the transpose read the output index (z, e, hb, wb) at (channel e % 336, depth e / 336, hb, wb):
    row-major position ((z·2016 + e)·240 + hb)·120 + wb with z = 0 is ((e/336 · 336 + e%336)·240 + hb)·120 + wb. -/
private theorem idx_out (z : Fin 1) (e : Fin 2016) (hb : Fin 240) (wb : Fin 120) :
    Read.idx_main_v20 (Read.idx_main_v21 (ix4 z e hb wb))
      = ix4 (⟨e.val % 336, Nat.mod_lt _ (by decide)⟩ : Fin 336) (⟨e.val / 336, by omega⟩ : Fin 6) hb wb := by
  have hz : z.val = 0 := by omega
  funext a; refine Fin.ext ?_
  match a with
  | ⟨0, _⟩ =>
    show (((z.val * 2016 + e.val) * 240 + hb.val) * 120 + wb.val) / 28800 % 336 = e.val % 336
    rw [hz]; omega
  | ⟨1, _⟩ =>
    show (((z.val * 2016 + e.val) * 240 + hb.val) * 120 + wb.val) / 9676800 = e.val / 336
    rw [hz]; omega
  | ⟨2, _⟩ =>
    show (((z.val * 2016 + e.val) * 240 + hb.val) * 120 + wb.val) / 120 % 240 = hb.val
    rw [hz]; omega
  | ⟨3, _⟩ =>
    show (((z.val * 2016 + e.val) * 240 + hb.val) * 120 + wb.val) % 120 = wb.val
    rw [hz]; omega

/-- The sum over the cameras reads camera k in front of the remaining coordinates. -/
private theorem idx_cam (c : Fin 336) (d : Fin 6) (hb : Fin 240) (wb : Fin 120) (k : Fin 4) :
    Read.idx_main_v19 (ix4 c d hb wb) k = ix5 k c d hb wb := by
  funext a
  match a with
  | ⟨0, _⟩ => rfl
  | ⟨1, _⟩ => rfl
  | ⟨2, _⟩ => rfl
  | ⟨3, _⟩ => rfl
  | ⟨4, _⟩ => rfl

/-- The weight laid along the channel axis: both broadcasts drop the channel coordinate. -/
private theorem idx_wt (k : Fin 4) (c : Fin 336) (d : Fin 6) (hb : Fin 240) (wb : Fin 120) :
    Read.idx_main_v16 (Read.idx_main_v17 (ix5 k c d hb wb)) = ix4 k d hb wb := by
  funext a
  match a with
  | ⟨0, _⟩ => rfl
  | ⟨1, _⟩ => rfl
  | ⟨2, _⟩ => rfl
  | ⟨3, _⟩ => rfl

/-- A word array given a trailing unit axis reads the word at the leading coordinates. -/
private theorem idx_unit (k : Fin 4) (d : Fin 6) (hb : Fin 240) (wb : Fin 120) (o : Fin 1) :
    Read.idx_main_v10 (ix5 k d hb wb o) = ix4 k d hb wb := by
  funext a
  match a with
  | ⟨0, _⟩ => rfl
  | ⟨1, _⟩ => rfl
  | ⟨2, _⟩ => rfl
  | ⟨3, _⟩ => rfl

/-- The wrapped row word of a row word in range is the word itself. -/
private theorem row_word (x2 : IVec S4x6x240x120 32) (hv : ∀ i, (x2 i).toNat < 96) (i : S4x6x240x120.Idx) :
    Read.val_main_v4 (F := Ideal) x2 i = x2 i := by
  have h := hv i
  exact wrap_id (x2 i) 96#32 (by omega)

/-- The wrapped column word of a column word in range is the word itself. -/
private theorem col_word (x1 : IVec S4x6x240x120 32) (hu : ∀ i, (x1 i).toNat < 176) (i : S4x6x240x120.Idx) :
    Read.val_main_v9 (F := Ideal) x1 i = x1 i := by
  have h := hu i
  exact wrap_id (x1 i) 176#32 (by omega)

/-- The start-index pair at a voxel: component 0 is the first piece of the concatenation, the row word. -/
private theorem pair_row (x1 x2 : IVec S4x6x240x120 32) (hv : ∀ i, (x2 i).toNat < 96)
    (k : Fin 4) (d : Fin 6) (hb : Fin 240) (wb : Fin 120) :
    Read.val_main_v12 (F := Ideal) x1 x2 (ix5 k d hb wb (0 : Fin 2)) = x2 (ix4 k d hb wb) := by
  unfold Read.val_main_v12
  refine (concatenate_pair_apply_left (t := S4x6x240x120x2) (s₁ := S4x6x240x120x1) (s₂ := S4x6x240x120x1) (4 : Fin 5) _ _ _
    (ix5 k d hb wb (0 : Fin 2)) rfl (ix5 k d hb wb (0 : Fin 1))
    (fun b => ?_)).trans ?_
  · match b with
    | ⟨0, _⟩ => rfl
    | ⟨1, _⟩ => rfl
    | ⟨2, _⟩ => rfl
    | ⟨3, _⟩ => rfl
    | ⟨4, _⟩ => rfl
  · rw [Read.val_main_v10_apply, idx_unit, row_word x2 hv]

/-- Component 1 is the second piece, the column word. -/
private theorem pair_col (x1 x2 : IVec S4x6x240x120 32) (hu : ∀ i, (x1 i).toNat < 176)
    (k : Fin 4) (d : Fin 6) (hb : Fin 240) (wb : Fin 120) :
    Read.val_main_v12 (F := Ideal) x1 x2 (ix5 k d hb wb (1 : Fin 2)) = x1 (ix4 k d hb wb) := by
  unfold Read.val_main_v12
  refine (concatenate_pair_apply_right (t := S4x6x240x120x2) (s₁ := S4x6x240x120x1) (s₂ := S4x6x240x120x1) (4 : Fin 5) _ _ _
    (ix5 k d hb wb (1 : Fin 2)) rfl rfl (ix5 k d hb wb (0 : Fin 1))
    (fun b hb' => ?_) rfl).trans ?_
  · match b with
    | ⟨0, _⟩ => rfl
    | ⟨1, _⟩ => rfl
    | ⟨2, _⟩ => rfl
    | ⟨3, _⟩ => rfl
    | ⟨4, _⟩ => exact absurd rfl hb'
  · rw [Read.val_main_v11_apply]
    show Read.val_main_v9 (F := Ideal) x1 (Read.idx_main_v10 (ix5 k d hb wb (0 : Fin 1))) = _
    rw [idx_unit, col_word x1 hu]

/-- The gathered pixel of camera k at channel c, voxel (d, hb, wb): the feature at the row and column the two words name. -/
private theorem pix_at (x0 : FVec Ideal S4x336x96x176 .f32) (x1 x2 : IVec S4x6x240x120 32)
    (hu : ∀ i, (x1 i).toNat < 176) (hv : ∀ i, (x2 i).toNat < 96)
    (k : Fin 4) (c : Fin 336) (d : Fin 6) (hb : Fin 240) (wb : Fin 120) :
    Read.val_main_v13 (F := Ideal) x0 x1 x2 (ix5 k c d hb wb)
      = x0 (ix4 k c (rowOf (x2 (ix4 k d hb wb))) (colOf (x1 (ix4 k d hb wb)))) := by
  unfold Read.val_main_v13
  refine (pixGather_apply _ x0 (Read.val_main_v12 (F := Ideal) x1 x2) k c d hb wb).trans ?_
  refine congrArg x0 ?_
  have hr := hv (ix4 k d hb wb)
  have hc := hu (ix4 k d hb wb)
  funext a; refine Fin.ext ?_
  match a with
  | ⟨0, _⟩ => rfl
  | ⟨1, _⟩ => rfl
  | ⟨2, _⟩ =>
    show min (Read.val_main_v12 (F := Ideal) x1 x2 (ix5 k d hb wb (0 : Fin 2))).toInt.toNat 95 = (rowOf (x2 (ix4 k d hb wb))).val
    rw [pair_row x1 x2 hv, toInt_toNat _ (by omega), rowOf_val hr]; omega
  | ⟨3, _⟩ =>
    show min (Read.val_main_v12 (F := Ideal) x1 x2 (ix5 k d hb wb (1 : Fin 2))).toInt.toNat 175 = (colOf (x1 (ix4 k d hb wb))).val
    rw [pair_col x1 x2 hu, toInt_toNat _ (by omega), colOf_val hc]; omega

/-- The weight factor at camera k, voxel (d, hb, wb), whatever the channel. -/
private theorem wt_at (x3 : IVec S4x6x240x120 32) (x4 : FVec Ideal S4x6x240x120 .f32)
    (k : Fin 4) (c : Fin 336) (d : Fin 6) (hb : Fin 240) (wb : Fin 120) :
    Read.val_main_v17 (F := Ideal) x3 x4 (ix5 k c d hb wb) = (mulf (sitofp .f32 x3) x4) (ix4 k d hb wb) := by
  rw [Read.val_main_v17_apply, Read.val_main_v16_apply, idx_wt]
  rfl

/-- THE REFERENCE IS THE SPECIFICATION, on index words in range. -/
theorem ref_eq (x0 : FVec Ideal S4x336x96x176 .f32) (x1 x2 x3 : IVec S4x6x240x120 32) (x4 : FVec Ideal S4x6x240x120 .f32)
    (hu : ∀ i, (x1 i).toNat < 176) (hv : ∀ i, (x2 i).toNat < 96) :
    Cert.ReferenceIdeal.Read.val_main_v21 (F := Ideal) x0 x1 x2 x3 x4
      = Cert.VoxelProj.G x0 x1 x2 (mulf (sitofp .f32 x3) x4) := by
  funext i
  obtain ⟨z, e, hb, wb, rfl⟩ : ∃ (z : Fin 1) (e : Fin 2016) (hb : Fin 240) (wb : Fin 120), i = ix4 z e hb wb :=
    ⟨i 0, i 1, i 2, i 3, eq_ix4 i⟩
  rw [Read.val_main_v21_apply, Read.val_main_v20_apply, idx_out, Read.val_main_v19_apply]
  refine (congrArg (· + _) (Ideal.ofBits_zero_f32)).trans ?_
  rw [zero_add]
  unfold G proj
  refine Finset.sum_congr rfl fun k _ => ?_
  rw [idx_cam, Read.val_main_v18_apply, pix_at x0 x1 x2 hu hv, wt_at]
  rfl

end Cert.VoxelProj.Ref

end
-- ==== Proof.Pieces.lean ====
/-
  What each control case of the kernel body leaves behind, as values of the body's stored terms.

  The body runs in three cases. At the first point of a group (camera 0, feature tile 0) it stores zero into the
  accumulator, reads it back, and stores accumulator + product: the accumulator ends at the accumulating term over the
  zero block. At an inner point it stores accumulator + product over what the point before left. At the last point of
  a group it does the same and then copies the accumulator into the output block. Each store covers its whole buffer,
  so what a buffer holds afterwards is the last store's value, and a load between two stores reads the earlier store.
-/
import proofs.«413295_j31258771980988_3_alg».proof.Proof.Gen.KernelIdeal.Frame
import Idealize.ShloMosaic.Lib.Pipeline.Value
import Idealize.ShloMosaic.Lib.Tactic

noncomputable section

namespace Cert.VoxelProj.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- An inner point leaves the accumulator at the accumulating term over what it held. -/
theorem sout_B (c : Dev nD) (i : grid0.Coords) (arg4 : Memref sig .tc .vmem S1x336x1536 .bf16) (harg4 : arg4.IsWhole) (arg5 : Memref sig .tc .vmem S1x1x1x1152 .i32) (harg5 : arg5.IsWhole) (arg6 : Memref sig .tc .vmem S1x1x1x1152 .f32) (harg6 : arg6.IsWhole) (arg7 : Memref sig .tc .vmem S1x336x1152 .f32) (harg7 : arg7.IsWhole) (arg8 : Memref sig .tc .vmem S336x1152 .f32) (harg8 : arg8.IsWhole) (hc0 : ¬cond0_0 i) (hc1 : ¬cond0_1 i)
    (x0 : Vec F S1x336x1536 .bf16) (x1 : Vec F S1x1x1x1152 .i32) (x2 : Vec F S1x1x1x1152 .f32) (xs0 : Vec F S336x1152 .f32) :
    sout0_B_0 c i arg4 harg4 arg5 harg5 arg6 harg6 arg7 harg7 arg8 harg8 hc0 hc1 x0 x1 x2 xs0 = k0_pay3 i x1 x2 xs0 x0 := by
  unfold sout0_B_0
  rw [View.read_writes_eq_canon _ _ _ (scover0_B_0 c i arg4 harg4 arg5 harg5 arg6 harg6 arg7 harg7 arg8 harg8 hc0 hc1 x0 x1 x2 xs0)]
  unfold kernelRun0_B
  dsimp only
  sl_unfold_words
  rw [View.canon_unit_zero hz2]
  simp only [View.readAt_eq_ld, harg4.read_unread, harg5.read_unread, harg6.read_unread, harg8.read_unread,
    View.ld_unit_zero (S := S336x1152) hz2, View.ld_unit_zero (S := S1x336x1536) hz3,
    View.ld_unit_zero (S := S1x1x1x1152) hz4]

/-- The first point of a group leaves the accumulator at the accumulating term over the zero block. -/
theorem sout_A (c : Dev nD) (i : grid0.Coords) (arg4 : Memref sig .tc .vmem S1x336x1536 .bf16) (harg4 : arg4.IsWhole) (arg5 : Memref sig .tc .vmem S1x1x1x1152 .i32) (harg5 : arg5.IsWhole) (arg6 : Memref sig .tc .vmem S1x1x1x1152 .f32) (harg6 : arg6.IsWhole) (arg7 : Memref sig .tc .vmem S1x336x1152 .f32) (harg7 : arg7.IsWhole) (arg8 : Memref sig .tc .vmem S336x1152 .f32) (harg8 : arg8.IsWhole) (hc0 : cond0_0 i) (hc1 : ¬cond0_1 i)
    (x0 : Vec F S1x336x1536 .bf16) (x1 : Vec F S1x1x1x1152 .i32) (x2 : Vec F S1x1x1x1152 .f32) :
    sout0_A_0 c i arg4 harg4 arg5 harg5 arg6 harg6 arg7 harg7 arg8 harg8 hc0 hc1 x0 x1 x2 = k0_pay3 i x1 x2 (k0_pay2 (F := F)) x0 := by
  unfold sout0_A_0
  rw [View.read_writes_eq_canon _ _ _ (scover0_A_0 c i arg4 harg4 arg5 harg5 arg6 harg6 arg7 harg7 arg8 harg8 hc0 hc1 x0 x1 x2)]
  unfold kernelRun0_A
  dsimp only
  sl_unfold_words
  rw [View.canon_cons_unit_zero (S := S336x1152) hz2]
  simp only [View.readAt_eq_ld, harg4.read_unread, harg5.read_unread, harg6.read_unread, harg8.read_unread,
    View.ld_unit_zero (S := S336x1152) hz2, View.ld_unit_zero (S := S1x336x1536) hz3,
    View.ld_unit_zero (S := S1x1x1x1152) hz4, View.readCov_unit_zero (S := S336x1152) _ hz2]

/-- The last point of a group leaves the accumulator likewise, -/
theorem sout_C (c : Dev nD) (i : grid0.Coords) (arg4 : Memref sig .tc .vmem S1x336x1536 .bf16) (harg4 : arg4.IsWhole) (arg5 : Memref sig .tc .vmem S1x1x1x1152 .i32) (harg5 : arg5.IsWhole) (arg6 : Memref sig .tc .vmem S1x1x1x1152 .f32) (harg6 : arg6.IsWhole) (arg7 : Memref sig .tc .vmem S1x336x1152 .f32) (harg7 : arg7.IsWhole) (arg8 : Memref sig .tc .vmem S336x1152 .f32) (harg8 : arg8.IsWhole) (hc0 : ¬cond0_0 i) (hc1 : cond0_1 i)
    (x0 : Vec F S1x336x1536 .bf16) (x1 : Vec F S1x1x1x1152 .i32) (x2 : Vec F S1x1x1x1152 .f32) (xs0 : Vec F S336x1152 .f32) :
    sout0_C_0 c i arg4 harg4 arg5 harg5 arg6 harg6 arg7 harg7 arg8 harg8 hc0 hc1 x0 x1 x2 xs0 = k0_pay3 i x1 x2 xs0 x0 := by
  unfold sout0_C_0
  rw [View.read_writes_eq_canon _ _ _ (scover0_C_0 c i arg4 harg4 arg5 harg5 arg6 harg6 arg7 harg7 arg8 harg8 hc0 hc1 x0 x1 x2 xs0)]
  unfold kernelRun0_C
  dsimp only
  sl_unfold_words
  rw [View.canon_unit_zero hz2]
  simp only [View.readAt_eq_ld, harg4.read_unread, harg5.read_unread, harg6.read_unread, harg8.read_unread,
    View.ld_unit_zero (S := S336x1152) hz2, View.ld_unit_zero (S := S1x336x1536) hz3,
    View.ld_unit_zero (S := S1x1x1x1152) hz4, View.readCov_unit_zero (S := S336x1152) _ hz2]

/-- and the output block at the accumulator's new contents behind a unit axis. -/
theorem out_C (c : Dev nD) (i : grid0.Coords) (arg4 : Memref sig .tc .vmem S1x336x1536 .bf16) (harg4 : arg4.IsWhole) (arg5 : Memref sig .tc .vmem S1x1x1x1152 .i32) (harg5 : arg5.IsWhole) (arg6 : Memref sig .tc .vmem S1x1x1x1152 .f32) (harg6 : arg6.IsWhole) (arg7 : Memref sig .tc .vmem S1x336x1152 .f32) (harg7 : arg7.IsWhole) (arg8 : Memref sig .tc .vmem S336x1152 .f32) (harg8 : arg8.IsWhole) (hc0 : ¬cond0_0 i) (hc1 : cond0_1 i)
    (x0 : Vec F S1x336x1536 .bf16) (x1 : Vec F S1x1x1x1152 .i32) (x2 : Vec F S1x1x1x1152 .f32) (xs0 : Vec F S336x1152 .f32) :
    out0_C_3 c i arg4 harg4 arg5 harg5 arg6 harg6 arg7 harg7 arg8 harg8 hc0 hc1 x0 x1 x2 xs0 = k0_pay1 (k0_pay3 i x1 x2 xs0 x0) := by
  unfold out0_C_3
  rw [View.read_writes_eq_canon _ _ _ (cover0_C_3 c i arg4 harg4 arg5 harg5 arg6 harg6 arg7 harg7 arg8 harg8 hc0 hc1 x0 x1 x2 xs0)]
  unfold kernelRun0_C
  dsimp only
  sl_unfold_words
  rw [View.canon_unit_zero hz3]
  simp only [View.readAt_eq_ld, harg4.read_unread, harg5.read_unread, harg6.read_unread, harg8.read_unread,
    View.ld_unit_zero (S := S336x1152) hz2, View.ld_unit_zero (S := S1x336x1536) hz3,
    View.ld_unit_zero (S := S1x1x1x1152) hz4, View.readCov_unit_zero (S := S336x1152) _ hz2]

end Cert.VoxelProj.Pieces

end
-- ==== Proof.Payload.lean ====
/-
  The kernel body's three stored values read at an index, over the extended reals.

  The reset stores zero. The accumulating store writes, at channel c and voxel column q of the tile, what the
  accumulator held plus the product of the feature tile's row c with the selector's column q: the selector holds, in
  row k, the voxel's weight when position k of this tile is the voxel's flattened pixel word and zero otherwise (a
  change of float format is the identity here, and the matrix unit's product into a zero accumulator is the plain sum
  over the contracted axis). The final store copies the accumulator behind a unit axis.
-/
import proofs.«413295_j31258771980988_3_alg».proof.Proof.Gen.KernelIdeal.Skeleton
import proofs.«413295_j31258771980988_3_alg».proof.Proof.Layout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.VoxelProj.Payload

open Cert.KernelIdeal Cert.KernelIdeal.Gen Idealize.ShloMosaic Idealize.ShloMosaic.ValueIdx

/-- The f32 zero word denotes the extended real zero. -/
private theorem zero_f32 : (Scalar.ofBits .f32 0x00000000#32 : Ideal .f32) = 0 := Ideal.ofBits_zero_f32

/-- A select on the equality test of two words is the `if` on their equality. -/
private theorem select_cmpi_eq {α : Type} (x y : BitVec 32) (a b : α) :
    Scalar.select (IntOp.cmpi .eq x y) a b = if x = y then a else b := by
  by_cases h : x = y
  · have h1 : IntOp.cmpi .eq x y = 1#1 := by simp [IntOp.cmpi, h]
    rw [h1, select_one, if_pos h]
  · have h0 : IntOp.cmpi .eq x y = 0#1 := by
      show BitVec.ofBool (x == y) = 0#1
      rw [beq_eq_false_iff_ne.mpr h]; rfl
    rw [h0, select_zero, if_neg h]

/-- The left operand's index at output index j and contraction position k has the output's row … -/
private theorem lhsIdx_axis0 (j : S336x1152.Idx) (k : dot_S336x1536_S1536x1152_S336x1152_1_0_0_1_n_n.contr.Idx) :
    (dot_S336x1536_S1536x1152_S336x1152_1_0_0_1_n_n.lhsIdx j k ⟨0, by decide⟩).val = (j ⟨0, by decide⟩).val := by
  simp [DotDims.lhsIdx, dot_S336x1536_S1536x1152_S336x1152_1_0_0_1_n_n]
  rfl

/-- … and the contraction position for its column. -/
private theorem lhsIdx_axis1 (j : S336x1152.Idx) (k : dot_S336x1536_S1536x1152_S336x1152_1_0_0_1_n_n.contr.Idx) :
    (dot_S336x1536_S1536x1152_S336x1152_1_0_0_1_n_n.lhsIdx j k ⟨1, by decide⟩).val = (k ⟨0, by decide⟩).val :=
  DotDims.lhsIdx_val_of_single dot_S336x1536_S1536x1152_S336x1152_1_0_0_1_n_n rfl j k

/-- The right operand's index has the contraction position for its row … -/
private theorem rhsIdx_axis0 (j : S336x1152.Idx) (k : dot_S336x1536_S1536x1152_S336x1152_1_0_0_1_n_n.contr.Idx) :
    (dot_S336x1536_S1536x1152_S336x1152_1_0_0_1_n_n.rhsIdx j k ⟨0, by decide⟩).val = (k ⟨0, by decide⟩).val :=
  DotDims.rhsIdx_val_of_single dot_S336x1536_S1536x1152_S336x1152_1_0_0_1_n_n rfl j k

/-- … and the output's column. -/
private theorem rhsIdx_axis1 (j : S336x1152.Idx) (k : dot_S336x1536_S1536x1152_S336x1152_1_0_0_1_n_n.contr.Idx) :
    (dot_S336x1536_S1536x1152_S336x1152_1_0_0_1_n_n.rhsIdx j k ⟨1, by decide⟩).val = (j ⟨1, by decide⟩).val := by
  simp [DotDims.rhsIdx, dot_S336x1536_S1536x1152_S336x1152_1_0_0_1_n_n]
  rfl

/-- The matrix unit's product into the zero accumulator, read at (c, q): the sum over the contracted coordinate of the
    products of the entries. -/
private theorem matmul_zero_ix (A : FVec Ideal S336x1536 .bf16) (B : FVec Ideal S1536x1152 .bf16) (c : Fin 336) (q : Fin 1152) :
    matmul dot_S336x1536_S1536x1152_S336x1152_1_0_0_1_n_n none A B (constant S336x1152 .f32 0x00000000#32) (ix2 c q)
      = ∑ k : Fin 1536, A (ix2 c k) * B (ix2 k q) := by
  show FloatOps.matmul dot_S336x1536_S1536x1152_S336x1152_1_0_0_1_n_n none A B (constant S336x1152 .f32 0x00000000#32) (ix2 c q) = _
  rw [Ideal.matmul_constant_zero_apply,
    ← Equiv.sum_comp (contrEquiv1 dot_S336x1536_S1536x1152_S336x1152_1_0_0_1_n_n 1536 rfl rfl).symm]
  refine Finset.sum_congr rfl fun k _ => ?_
  have hk := contrEquiv1_symm_val dot_S336x1536_S1536x1152_S336x1152_1_0_0_1_n_n 1536 rfl rfl k
  have hl : dot_S336x1536_S1536x1152_S336x1152_1_0_0_1_n_n.lhsIdx (ix2 c q)
      ((contrEquiv1 dot_S336x1536_S1536x1152_S336x1152_1_0_0_1_n_n 1536 rfl rfl).symm k) = ix2 c k := by
    funext ax; apply Fin.ext
    match ax with
    | ⟨0, _⟩ => exact lhsIdx_axis0 _ _
    | ⟨1, _⟩ => exact (lhsIdx_axis1 _ _).trans hk
  have hr : dot_S336x1536_S1536x1152_S336x1152_1_0_0_1_n_n.rhsIdx (ix2 c q)
      ((contrEquiv1 dot_S336x1536_S1536x1152_S336x1152_1_0_0_1_n_n 1536 rfl rfl).symm k) = ix2 k q := by
    funext ax; apply Fin.ext
    match ax with
    | ⟨0, _⟩ => exact (rhsIdx_axis0 _ _).trans hk
    | ⟨1, _⟩ => exact rhsIdx_axis1 _ _
  rw [hl, hr]

/-- A [1, 1, 1, 1152] block brought to a row and copied down the 1536 rows reads, at (k, q), the block's entry q. -/
private theorem row_down_apply {α : Type} (x : S1x1x1x1152.Idx → α) (k : Fin 1536) (q : Fin 1152) :
    broadcastTo S1536x1152
        (shapeCast S1x1152 (shapeCast S1x1152 x shapeCasts_S1x1x1x1152_S1x1152) shapeCasts_S1x1152_S1x1152)
        broadcasts_S1x1152_S1536x1152 (ix2 k q)
      = x (ix4 (0 : Fin 1) (0 : Fin 1) (0 : Fin 1) q) := by
  rw [broadcastTo_1b_ab_apply, shapeCast_self, Cert.VoxelProj.row_of_111b_apply]

/-- The selector at an index: where the offset word plus the row word is the column's word, the column's value, else
    zero; the change of float format is the identity on the extended reals. -/
private theorem selector_at (w : BitVec 32) (I R : IVec S1536x1152 32) (V : FVec Ideal S1536x1152 .f32)
    (j : S1536x1152.Idx) :
    (truncf .bf16
        (select (cmpi .eq (addi (broadcast S1536x1152 w) I) R) V
          (broadcast S1536x1152 (Scalar.ofBits .f32 0x00000000#32)))
        bitsLt_bf16_f32 : FVec Ideal S1536x1152 .bf16) j
      = if w + I j = R j then V j else 0 :=
  (select_cmpi_eq (w + I j) (R j) (V j) (Scalar.ofBits .f32 0x00000000#32)).trans (by rw [zero_f32])

/-- The reset's value: zero everywhere. -/
theorem pay2_apply (y : S336x1152.Idx) : k0_pay2 (F := Ideal) y = 0 := by
  unfold k0_pay2
  rw [shapeCast_self]
  exact Ideal.ofBits_zero_f32

/-- The final store's value: the accumulator, behind a unit axis. -/
theorem pay1_apply (v34 : FVec Ideal S336x1152 .f32) (c : Fin 336) (q : Fin 1152) :
    k0_pay1 (F := Ideal) v34 (ix3 (0 : Fin 1) c q) = v34 (ix2 c q) :=
  shapeCast_ab_1ab_apply v34 _ 0 c q

/-- The accumulating store's value at (c, q). -/
theorem pay3_apply (i : grid0.Coords) (v9 : IVec S1x1x1x1152 32) (v14 : FVec Ideal S1x1x1x1152 .f32)
    (v21 : FVec Ideal S336x1152 .f32) (v22 : FVec Ideal S1x336x1536 .bf16) (c : Fin 336) (q : Fin 1152) :
    k0_pay3 (F := Ideal) i v9 v14 v21 v22 (ix2 c q)
      = v21 (ix2 c q) + ∑ k : Fin 1536, v22 (ix3 (0 : Fin 1) c k) *
          (if BitVec.ofNat 32 (i 3).val * 1536#32 + BitVec.ofNat 32 k.val = v9 (ix4 (0 : Fin 1) (0 : Fin 1) (0 : Fin 1) q)
            then v14 (ix4 (0 : Fin 1) (0 : Fin 1) (0 : Fin 1) q) else 0) := by
  unfold k0_pay3
  dsimp only
  rw [shapeCast_self, addf_apply, matmul_zero_ix]
  refine congrArg (v21 (ix2 c q) + ·) (Finset.sum_congr rfl fun k _ => ?_)
  rw [shapeCast_1ab_ab_apply, selector_at, row_down_apply, row_down_apply, iota_single_apply]
  rfl

end Cert.VoxelProj.Payload

end
-- ==== Proof.Blocks.lean ====
/-
  What the kernel's three input windows hold at a grid point, in terms of the argument arrays.

  Point t of the 6 × 25 × 4 × 11 grid is depth d = t / 1100, voxel tile qb = t / 44 % 25, camera n = t / 11 % 4,
  feature tile h = t % 11. The feature window's block is camera n's flattened map, columns h·1536 … h·1536 + 1535
  (position j of the flattened map is pixel (j / 176, j % 176); the host's change of float format is the identity over
  the extended reals). The index window's block is, for the 1152 voxels Q = qb·1152 + q of the tile (voxel (Q / 120,
  Q % 120)), the flattened pixel word row·176 + column the host computed; the weight window's the product of the
  validity word, converted, and the density.
-/
import proofs.«413295_j31258771980988_3_alg».proof.Proof.Gen.KernelIdeal.Frame
import proofs.«413295_j31258771980988_3_alg».proof.Proof.Layout
import Idealize.ShloMosaic.Lib.ValueIdx
import Idealize.ShloMosaic.Lib.Pipeline.Value
import Idealize.ShloMosaic.Lib.StableHlo.Run

noncomputable section

namespace Cert.VoxelProj.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The three input blocks at a point, at their literal types. -/
abbrev fblk (c : Dev nD) (t : Fin cfg0.N) : FVec Ideal S1x336x1536 .bf16 := iblk m c 0 t
abbrev qblk (c : Dev nD) (t : Fin cfg0.N) : IVec S1x1x1x1152 32 := iblk m c 1 t
abbrev wblk (c : Dev nD) (t : Fin cfg0.N) : FVec Ideal S1x1x1x1152 .f32 := iblk m c 2 t

/-- The argument arrays: features, column words, row words, and the weight valid · density. -/
abbrev xarr (c : Dev nD) : FVec Ideal S4x336x96x176 .f32 := m ((c : Thread nD τ).loc main_arg0)
abbrev uarr (c : Dev nD) : IVec S4x6x240x120 32 := m ((c : Thread nD τ).loc main_arg1)
abbrev varr (c : Dev nD) : IVec S4x6x240x120 32 := m ((c : Thread nD τ).loc main_arg2)
abbrev wtarr (c : Dev nD) : FVec Ideal S4x6x240x120 .f32 :=
  mulf (sitofp .f32 (m ((c : Thread nD τ).loc main_arg3))) (m ((c : Thread nD τ).loc main_arg4))

/-! ## The grid and the index maps, decided once over the 6600 points -/

/-- The coordinates of every point of the grid. -/
private theorem coords_all : ∀ t : Fin grid0.N,
    (grid0.coords t 0).val = t.val / 1100 ∧ (grid0.coords t 1).val = t.val / 44 % 25
      ∧ (grid0.coords t 2).val = t.val / 11 % 4 ∧ (grid0.coords t 3).val = t.val % 11 := by
  decide +kernel

/-- The feature window's block index at every point: (camera, 0, feature tile). -/
private theorem fidx_all : ∀ t : Fin grid0.N,
    win0_0.index t 0 = t.val / 11 % 4 ∧ win0_0.index t 1 = 0 ∧ win0_0.index t 2 = t.val % 11 := by
  decide +kernel

/-- The index window's block index at every point: (camera, depth, 0, voxel tile). -/
private theorem qidx_all : ∀ t : Fin grid0.N,
    win0_1.index t 0 = t.val / 11 % 4 ∧ win0_1.index t 1 = t.val / 1100 ∧ win0_1.index t 2 = 0
      ∧ win0_1.index t 3 = t.val / 44 % 25 := by
  decide +kernel

/-- The weight window's block index at every point: the same (camera, depth, 0, voxel tile). -/
private theorem widx_all : ∀ t : Fin grid0.N,
    win0_2.index t 0 = t.val / 11 % 4 ∧ win0_2.index t 1 = t.val / 1100 ∧ win0_2.index t 2 = 0
      ∧ win0_2.index t 3 = t.val / 44 % 25 := by
  decide +kernel

/-- The grid's coordinates of a point, as arithmetic on its position. -/
theorem coords_val (t : Fin cfg0.N) :
    (grid0.coords t 0).val = t.val / 1100 ∧ (grid0.coords t 1).val = t.val / 44 % 25
      ∧ (grid0.coords t 2).val = t.val / 11 % 4 ∧ (grid0.coords t 3).val = t.val % 11 :=
  coords_all t

/-! ## A block's element is an element of its array

A block's coordinate on an axis is the block index times the block's extent plus the coordinate inside the block. -/

/-- Element (0, cc, k) of the feature block is element (n, cc, h·1536 + k) of the flattened, narrowed feature array. -/
private theorem fblk_eq (c : Dev nD) (t : Fin cfg0.N) (cc : Fin 336) (k : Fin 1536) (n : Fin 4) (j : Fin 16896)
    (hn : n.val = t.val / 11 % 4) (hj : j.val = t.val % 11 * 1536 + k.val) :
    fblk m c t (ix3 (0 : Fin 1) cc k) = (V m c main_v1 : FVec Ideal S4x336x16896 .bf16) (ix3 n cc j) := by
  obtain ⟨e0, e1, e2⟩ := fidx_all t
  show iblk m c 0 t _ = _
  unfold iblk
  rw [View.read_apply]
  show V m c main_v1 _ = V m c main_v1 _
  refine congrArg (V m c main_v1) ?_
  funext a
  apply Fin.ext
  match a with
  | ⟨0, _⟩ => show win0_0.index t 0 * 1 + 1 * (0 : Fin 1).val = n.val; rw [e0, hn]; simp
  | ⟨1, _⟩ => show win0_0.index t 1 * 336 + 1 * cc.val = cc.val; rw [e1]; omega
  | ⟨2, _⟩ => show win0_0.index t 2 * 1536 + 1 * k.val = j.val; rw [e2, hj]; omega

/-- Element (0, 0, 0, q) of the index block is element (n, d, 0, qb·1152 + q) of the flattened index array. -/
private theorem qblk_eq (c : Dev nD) (t : Fin cfg0.N) (q : Fin 1152) (n : Fin 4) (d : Fin 6) (Q : Fin 28800)
    (hn : n.val = t.val / 11 % 4) (hd : d.val = t.val / 1100) (hQ : Q.val = t.val / 44 % 25 * 1152 + q.val) :
    qblk m c t (ix4 (0 : Fin 1) (0 : Fin 1) (0 : Fin 1) q)
      = (V m c main_v5 : IVec S4x6x1x28800 32) (ix4 n d (0 : Fin 1) Q) := by
  obtain ⟨e0, e1, e2, e3⟩ := qidx_all t
  show iblk m c 1 t _ = _
  unfold iblk
  rw [View.read_apply]
  show V m c main_v5 _ = V m c main_v5 _
  refine congrArg (V m c main_v5) ?_
  funext a
  apply Fin.ext
  match a with
  | ⟨0, _⟩ => show win0_1.index t 0 * 1 + 1 * (0 : Fin 1).val = n.val; rw [e0, hn]; simp
  | ⟨1, _⟩ => show win0_1.index t 1 * 1 + 1 * (0 : Fin 1).val = d.val; rw [e1, hd]; simp
  | ⟨2, _⟩ => show win0_1.index t 2 * 1 + 1 * (0 : Fin 1).val = (0 : Fin 1).val; rw [e2]; simp
  | ⟨3, _⟩ => show win0_1.index t 3 * 1152 + 1 * q.val = Q.val; rw [e3, hQ]; omega

/-- Element (0, 0, 0, q) of the weight block is element (n, d, 0, qb·1152 + q) of the flattened weight array. -/
private theorem wblk_eq (c : Dev nD) (t : Fin cfg0.N) (q : Fin 1152) (n : Fin 4) (d : Fin 6) (Q : Fin 28800)
    (hn : n.val = t.val / 11 % 4) (hd : d.val = t.val / 1100) (hQ : Q.val = t.val / 44 % 25 * 1152 + q.val) :
    wblk m c t (ix4 (0 : Fin 1) (0 : Fin 1) (0 : Fin 1) q)
      = (V m c main_v8 : FVec Ideal S4x6x1x28800 .f32) (ix4 n d (0 : Fin 1) Q) := by
  obtain ⟨e0, e1, e2, e3⟩ := widx_all t
  show iblk m c 2 t _ = _
  unfold iblk
  rw [View.read_apply]
  show V m c main_v8 _ = V m c main_v8 _
  refine congrArg (V m c main_v8) ?_
  funext a
  apply Fin.ext
  match a with
  | ⟨0, _⟩ => show win0_2.index t 0 * 1 + 1 * (0 : Fin 1).val = n.val; rw [e0, hn]; simp
  | ⟨1, _⟩ => show win0_2.index t 1 * 1 + 1 * (0 : Fin 1).val = d.val; rw [e1, hd]; simp
  | ⟨2, _⟩ => show win0_2.index t 2 * 1 + 1 * (0 : Fin 1).val = (0 : Fin 1).val; rw [e2]; simp
  | ⟨3, _⟩ => show win0_2.index t 3 * 1152 + 1 * q.val = Q.val; rw [e3, hQ]; omega

/-! ## What the three staged arrays hold when the kernel starts: the host's operations on the arguments -/

/-- The staged feature array: the feature maps flattened to 16896 positions, then narrowed. -/
private theorem featArr_eq (c : Dev nD) : (V m c main_v1 : FVec Ideal S4x336x16896 .bf16)
    = truncf .bf16 (shapeCast S4x336x16896 (xarr m c) Facts₀.shapeCasts_S4x336x96x176_S4x336x16896)
        Facts₀.bitsLt_bf16_f32 := by
  show StableHlo.after hostOps0 (fun b => m (c, b)) (Proc.devRef .tc main_v1) = _
  after_results
  rfl

/-- The staged index array: row word · 176 + column word, the voxel grid flattened to 28800 positions. -/
private theorem idxArr_eq (c : Dev nD) : (V m c main_v5 : IVec S4x6x1x28800 32)
    = shapeCast S4x6x1x28800 (addi (muli (varr m c)
        (broadcastInDim S4x6x240x120 ![] Facts₀.bcast_S_S4x6x240x120 (constantI S_ 32 176#32))) (uarr m c))
        Facts₀.shapeCasts_S4x6x240x120_S4x6x1x28800 := by
  show StableHlo.after hostOps0 (fun b => m (c, b)) (Proc.devRef .tc main_v5) = _
  after_results
  rfl

/-- The staged weight array: validity word, converted, times density, the voxel grid flattened likewise. -/
private theorem wtArr_eq (c : Dev nD) : (V m c main_v8 : FVec Ideal S4x6x1x28800 .f32)
    = shapeCast S4x6x1x28800 (wtarr m c) Facts₀.shapeCasts_S4x6x240x120_S4x6x1x28800 := by
  show StableHlo.after hostOps0 (fun b => m (c, b)) (Proc.devRef .tc main_v8) = _
  after_results
  rfl

/-! ## The blocks in terms of the argument arrays -/

/-- The feature block at (c, k): camera n's map at channel c, the pixel of flattened position h·1536 + k. -/
theorem fblk_apply (c : Dev nD) (t : Fin cfg0.N) (cc : Fin 336) (k : Fin 1536) (n : Fin 4) (r : Fin 96) (cl : Fin 176)
    (hn : n.val = t.val / 11 % 4) (hr : r.val = (t.val % 11 * 1536 + k.val) / 176)
    (hc : cl.val = (t.val % 11 * 1536 + k.val) % 176) :
    fblk m c t (ix3 (0 : Fin 1) cc k) = xarr m c (ix4 n cc r cl) := by
  have hk : k.val < 1536 := k.isLt
  have hj : t.val % 11 * 1536 + k.val < 16896 := by omega
  obtain ⟨rv, hrv⟩ := r
  obtain ⟨cv, hcv⟩ := cl
  have hr' : rv = (t.val % 11 * 1536 + k.val) / 176 := hr
  have hc' : cv = (t.val % 11 * 1536 + k.val) % 176 := hc
  subst hr' hc'
  refine (fblk_eq m c t cc k n ⟨t.val % 11 * 1536 + k.val, hj⟩ hn rfl).trans ?_
  rw [featArr_eq]
  refine (truncf_apply (φ := .f32) (ψ := .bf16)
    (shapeCast S4x336x16896 (xarr m c) Facts₀.shapeCasts_S4x336x96x176_S4x336x16896) Facts₀.bitsLt_bf16_f32 _).trans ?_
  exact flatPix_apply (xarr m c) _ n cc ⟨t.val % 11 * 1536 + k.val, hj⟩

/-- The index block at q: the flattened pixel word of voxel qb·1152 + q for camera n at depth d. -/
theorem qblk_apply (c : Dev nD) (t : Fin cfg0.N) (q : Fin 1152) (n : Fin 4) (d : Fin 6) (hb : Fin 240) (wb : Fin 120)
    (hn : n.val = t.val / 11 % 4) (hd : d.val = t.val / 1100)
    (hhb : hb.val = (t.val / 44 % 25 * 1152 + q.val) / 120) (hwb : wb.val = (t.val / 44 % 25 * 1152 + q.val) % 120) :
    qblk m c t (ix4 (0 : Fin 1) (0 : Fin 1) (0 : Fin 1) q) = varr m c (ix4 n d hb wb) * 176#32 + uarr m c (ix4 n d hb wb) := by
  have hq : q.val < 1152 := q.isLt
  have hQ : t.val / 44 % 25 * 1152 + q.val < 28800 := by omega
  obtain ⟨hv, hhv⟩ := hb
  obtain ⟨wv, hwv⟩ := wb
  have hhb' : hv = (t.val / 44 % 25 * 1152 + q.val) / 120 := hhb
  have hwb' : wv = (t.val / 44 % 25 * 1152 + q.val) % 120 := hwb
  subst hhb' hwb'
  refine (qblk_eq m c t q n d ⟨t.val / 44 % 25 * 1152 + q.val, hQ⟩ hn hd rfl).trans ?_
  rw [idxArr_eq]
  refine (flatVox_apply _ _ n d (0 : Fin 1) ⟨t.val / 44 % 25 * 1152 + q.val, hQ⟩).trans ?_
  rfl

/-- The weight block at q: the weight of that voxel for camera n at depth d. -/
theorem wblk_apply (c : Dev nD) (t : Fin cfg0.N) (q : Fin 1152) (n : Fin 4) (d : Fin 6) (hb : Fin 240) (wb : Fin 120)
    (hn : n.val = t.val / 11 % 4) (hd : d.val = t.val / 1100)
    (hhb : hb.val = (t.val / 44 % 25 * 1152 + q.val) / 120) (hwb : wb.val = (t.val / 44 % 25 * 1152 + q.val) % 120) :
    wblk m c t (ix4 (0 : Fin 1) (0 : Fin 1) (0 : Fin 1) q) = wtarr m c (ix4 n d hb wb) := by
  have hq : q.val < 1152 := q.isLt
  have hQ : t.val / 44 % 25 * 1152 + q.val < 28800 := by omega
  obtain ⟨hv, hhv⟩ := hb
  obtain ⟨wv, hwv⟩ := wb
  have hhb' : hv = (t.val / 44 % 25 * 1152 + q.val) / 120 := hhb
  have hwb' : wv = (t.val / 44 % 25 * 1152 + q.val) % 120 := hwb
  subst hhb' hwb'
  refine (wblk_eq m c t q n d ⟨t.val / 44 % 25 * 1152 + q.val, hQ⟩ hn hd rfl).trans ?_
  rw [wtArr_eq]
  exact flatVox_apply (wtarr m c) _ n d (0 : Fin 1) ⟨t.val / 44 % 25 * 1152 + q.val, hQ⟩

end Cert.VoxelProj.Blocks

end
-- ==== Proof.Accum.lean ====
/-
  The kernel's result array holds the specification.

  The grid runs, for each depth d and voxel tile qb (a group: 44 consecutive points, point 44·g + s of group
  g = d·25 + qb being camera s / 11, feature tile s % 11), a zeroed accumulator through 44 additions and writes it
  back once, at the group's last point. So by induction along the group the accumulator after a point is the sum of
  the addends of the group's points so far (`acc_eq`); at the last point the output block is that sum over the whole
  group (`out_eq`); regrouped by camera and tile and collapsed against the selector (the specification's
  `onehot_collapse`, with the index words in range so that the flattened pixel word is row·176 + column and falls in
  exactly one tile) the group's sum is the projection (`group_sum`). Every index of the [6, 336, 28800] array lies in
  the block of exactly such a last point (`cover`), so the array ends holding the specification in the kernel's
  layout (`final`).
-/
import proofs.«413295_j31258771980988_3_alg».proof.Proof.Gen.KernelIdeal.Frame
import proofs.«413295_j31258771980988_3_alg».proof.Proof.Pieces
import proofs.«413295_j31258771980988_3_alg».proof.Proof.Payload
import proofs.«413295_j31258771980988_3_alg».proof.Proof.Blocks
import proofs.«413295_j31258771980988_3_alg».proof.Proof.Spec
import proofs.«413295_j31258771980988_3_alg».proof.Proof.Words
import Idealize.ShloMosaic.Lib.ValueIdx
import Idealize.ShloMosaic.Lib.Pipeline.Value

noncomputable section

open scoped BigOperators

namespace Cert.VoxelProj.Accum

open Cert.KernelIdeal Cert.KernelIdeal.Gen Idealize.ShloMosaic Idealize.ShloMosaic.TcCoe Idealize.ShloMosaic.ValueIdx
open Idealize.SL.Sem Cert.VoxelProj Cert.VoxelProj.Blocks

variable (m : (ℓ : Loc nD τ sig) → Buf (Elt Ideal) ℓ)

/-- Point t's addend at channel cc, voxel column q: the feature tile's row cc against the selector's column q. -/
def term (c : Dev nD) (t : Fin cfg0.N) (cc : Fin 336) (q : Fin 1152) : EReal :=
  ∑ k : Fin 1536, fblk m c t (ix3 (0 : Fin 1) cc k) *
    (if BitVec.ofNat 32 (grid0.coords t 3).val * 1536#32 + BitVec.ofNat 32 k.val = qblk m c t (ix4 (0 : Fin 1) (0 : Fin 1) (0 : Fin 1) q)
      then wblk m c t (ix4 (0 : Fin 1) (0 : Fin 1) (0 : Fin 1) q) else 0)

/-- The same by the point's position, zero past the grid. -/
def addend (c : Dev nD) (p : ℕ) (cc : Fin 336) (q : Fin 1152) : EReal :=
  if h : p < cfg0.N then term m c ⟨p, h⟩ cc q else 0

theorem addend_of_lt (c : Dev nD) (p : ℕ) (h : p < cfg0.N) (cc : Fin 336) (q : Fin 1152) :
    addend m c p cc q = term m c ⟨p, h⟩ cc q := dif_pos h

/-- A group's first point resets: the accumulator ends at the point's addend. -/
theorem step_first (c : Dev nD) (t : Fin cfg0.N) (h0 : t.val % 44 = 0) (cc : Fin 336) (q : Fin 1152) :
    (outsAt0 m c t.val t.isLt).2 (ix2 cc q) = term m c t cc q := by
  rw [outsAt0_A m c t h0 (by omega)]
  dsimp only
  refine (congrFun (Pieces.sout_A (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)) (ix2 cc q)).trans ?_
  refine (Payload.pay3_apply (grid0.coords t) (qblk m c t) (wblk m c t) (k0_pay2 (F := Ideal)) (fblk m c t) cc q).trans ?_
  rw [Payload.pay2_apply, zero_add]
  rfl

/-- Every other point adds its addend to what the point before left. -/
theorem step_next (c : Dev nD) (t : Fin cfg0.N) (h0 : ¬t.val % 44 = 0) (cc : Fin 336) (q : Fin 1152) :
    (outsAt0 m c t.val t.isLt).2 (ix2 cc q)
      = (outsAt0 m c (t.val - 1) (Nat.lt_of_le_of_lt (Nat.sub_le _ _) t.isLt)).2 (ix2 cc q) + term m c t cc q := by
  by_cases h1 : t.val % 44 = 43
  · rw [outsAt0_C m c t h0 h1]
    dsimp only
    refine (congrFun (Pieces.sout_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
      (outsAt0 m c (t.val - 1) (Nat.lt_of_le_of_lt (Nat.sub_le _ _) t.isLt)).2) (ix2 cc q)).trans ?_
    exact Payload.pay3_apply (grid0.coords t) (qblk m c t) (wblk m c t)
      (outsAt0 m c (t.val - 1) (Nat.lt_of_le_of_lt (Nat.sub_le _ _) t.isLt)).2 (fblk m c t) cc q
  · rw [outsAt0_B m c t h0 h1]
    dsimp only
    refine (congrFun (Pieces.sout_B (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
      (outsAt0 m c (t.val - 1) (Nat.lt_of_le_of_lt (Nat.sub_le _ _) t.isLt)).2) (ix2 cc q)).trans ?_
    exact Payload.pay3_apply (grid0.coords t) (qblk m c t) (wblk m c t)
      (outsAt0 m c (t.val - 1) (Nat.lt_of_le_of_lt (Nat.sub_le _ _) t.isLt)).2 (fblk m c t) cc q

/-- THE ACCUMULATOR after point n: the addends of the points of n's group up to n. -/
theorem acc_eq (c : Dev nD) : ∀ (n : ℕ) (hn : n < cfg0.N) (cc : Fin 336) (q : Fin 1152),
    (outsAt0 m c n hn).2 (ix2 cc q) = ∑ s ∈ Finset.range (n % 44 + 1), addend m c (44 * (n / 44) + s) cc q
  | 0, hn, cc, q => by
    rw [step_first m c ⟨0, hn⟩ rfl cc q]
    show _ = ∑ s ∈ Finset.range 1, addend m c (44 * 0 + s) cc q
    rw [Finset.sum_range_one, addend_of_lt m c _ hn]
  | n + 1, hn, cc, q => by
    by_cases h0 : (n + 1) % 44 = 0
    · rw [step_first m c ⟨n + 1, hn⟩ h0 cc q, h0, Finset.sum_range_one]
      have e : 44 * ((n + 1) / 44) + 0 = n + 1 := by omega
      rw [e, addend_of_lt m c _ hn]
    · rw [step_next m c ⟨n + 1, hn⟩ h0 cc q]
      show (outsAt0 m c n (Nat.lt_of_succ_lt hn)).2 (ix2 cc q) + _ = _
      rw [acc_eq c n (Nat.lt_of_succ_lt hn) cc q]
      have e1 : (n + 1) % 44 = n % 44 + 1 := by omega
      have e2 : (n + 1) / 44 = n / 44 := by omega
      rw [e1, e2, Finset.sum_range_succ _ (n % 44 + 1)]
      have e3 : 44 * (n / 44) + (n % 44 + 1) = n + 1 := by omega
      rw [e3, addend_of_lt m c _ hn]

/-- At a group's last point the output block is the accumulator, behind a unit axis: the whole group's addends. -/
theorem out_eq (c : Dev nD) (t : Fin cfg0.N) (h43 : t.val % 44 = 43) (cc : Fin 336) (q : Fin 1152) :
    (outsAt0 m c t.val t.isLt).1 (ix3 (0 : Fin 1) cc q) = ∑ s ∈ Finset.range 44, addend m c (44 * (t.val / 44) + s) cc q := by
  have h0 : ¬t.val % 44 = 0 := by omega
  have hacc := acc_eq m c t.val t.isLt cc q
  rw [h43] at hacc
  rw [← hacc, outsAt0_C m c t h0 h43]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
    (outsAt0 m c (t.val - 1) (Nat.lt_of_le_of_lt (Nat.sub_le _ _) t.isLt)).2) (ix3 (0 : Fin 1) cc q)).trans ?_
  refine (Payload.pay1_apply _ cc q).trans ?_
  exact (congrFun (Pieces.sout_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
    (outsAt0 m c (t.val - 1) (Nat.lt_of_le_of_lt (Nat.sub_le _ _) t.isLt)).2) (ix2 cc q)).symm

/-- THE GROUP'S SUM IS THE PROJECTION. For group g (depth g / 25, voxel tile g % 25) and index words in range, the 44
    addends at channel cc and voxel column q sum to the projection at that depth, channel and voxel: camera by camera,
    the eleven tiles against the selector collapse to the feature at the named pixel times the weight. -/
theorem group_sum (c : Dev nD) (hu : ∀ i, (uarr m c i).toNat < 176) (hv : ∀ i, (varr m c i).toNat < 96)
    (g : ℕ) (hg : g < 150) (cc : Fin 336) (q : Fin 1152) (d : Fin 6) (hb : Fin 240) (wb : Fin 120)
    (hd : d.val = g / 25) (hhb : hb.val = (g % 25 * 1152 + q.val) / 120) (hwb : wb.val = (g % 25 * 1152 + q.val) % 120) :
    ∑ s ∈ Finset.range 44, addend m c (44 * g + s) cc q
      = proj (xarr m c) (uarr m c) (varr m c) (wtarr m c) d cc hb wb := by
  have hN : cfg0.N = 6600 := N_0
  rw [sum_range_44]
  unfold proj
  refine Finset.sum_congr rfl fun n _ => ?_
  have hvn := hv (ix4 n d hb wb)
  have hun := hu (ix4 n d hb wb)
  -- the flattened pixel the two words name, and the camera's flattened feature row
  have hJ : (varr m c (ix4 n d hb wb)).toNat * 176 + (uarr m c (ix4 n d hb wb)).toNat < 16896 := by omega
  let f : ℕ → EReal := fun j => if hj : j < 16896 then
    xarr m c (ix4 n cc ⟨j / 176, by omega⟩ ⟨j % 176, Nat.mod_lt _ (by decide)⟩) else 0
  have key : ∀ h : Fin 11, addend m c (44 * g + (n.val * 11 + h.val)) cc q
      = ∑ k : Fin 1536, f (h.val * 1536 + k.val) *
          (if h.val * 1536 + k.val = (varr m c (ix4 n d hb wb)).toNat * 176 + (uarr m c (ix4 n d hb wb)).toNat
            then wtarr m c (ix4 n d hb wb) else 0) := by
    intro h
    have hp : 44 * g + (n.val * 11 + h.val) < cfg0.N := by rw [hN]; omega
    rw [addend_of_lt m c _ hp]
    unfold term
    refine Finset.sum_congr rfl fun k _ => ?_
    obtain ⟨-, -, -, c3⟩ := coords_val (⟨44 * g + (n.val * 11 + h.val), hp⟩ : Fin cfg0.N)
    have tv : ((⟨44 * g + (n.val * 11 + h.val), hp⟩ : Fin cfg0.N)).val = 44 * g + (n.val * 11 + h.val) := rfl
    have hjk : h.val * 1536 + k.val < 16896 := by omega
    have e11 : (44 * g + (n.val * 11 + h.val)) % 11 = h.val := by omega
    have e4 : (44 * g + (n.val * 11 + h.val)) / 11 % 4 = n.val := by omega
    have e6 : (44 * g + (n.val * 11 + h.val)) / 1100 = g / 25 := by omega
    have e25 : (44 * g + (n.val * 11 + h.val)) / 44 % 25 = g % 25 := by omega
    have an : n.val = (44 * g + (n.val * 11 + h.val)) / 11 % 4 := e4.symm
    have ad : d.val = (44 * g + (n.val * 11 + h.val)) / 1100 := by rw [e6]; exact hd
    have ahb : hb.val = ((44 * g + (n.val * 11 + h.val)) / 44 % 25 * 1152 + q.val) / 120 := by rw [e25]; exact hhb
    have awb : wb.val = ((44 * g + (n.val * 11 + h.val)) / 44 % 25 * 1152 + q.val) % 120 := by rw [e25]; exact hwb
    have ar : (h.val * 1536 + k.val) / 176 = ((44 * g + (n.val * 11 + h.val)) % 11 * 1536 + k.val) / 176 := by rw [e11]
    have ac : (h.val * 1536 + k.val) % 176 = ((44 * g + (n.val * 11 + h.val)) % 11 * 1536 + k.val) % 176 := by rw [e11]
    have hF := fblk_apply m c (⟨44 * g + (n.val * 11 + h.val), hp⟩ : Fin cfg0.N) cc k n
      ⟨(h.val * 1536 + k.val) / 176, by omega⟩ ⟨(h.val * 1536 + k.val) % 176, Nat.mod_lt _ (by decide)⟩ an ar ac
    have hQ := qblk_apply m c (⟨44 * g + (n.val * 11 + h.val), hp⟩ : Fin cfg0.N) q n d hb wb an ad ahb awb
    have hW := wblk_apply m c (⟨44 * g + (n.val * 11 + h.val), hp⟩ : Fin cfg0.N) q n d hb wb an ad ahb awb
    rw [hF, hQ, hW, c3, tv, e11]
    have hf : f (h.val * 1536 + k.val)
        = xarr m c (ix4 n cc ⟨(h.val * 1536 + k.val) / 176, by omega⟩ ⟨(h.val * 1536 + k.val) % 176, Nat.mod_lt _ (by decide)⟩) :=
      dif_pos hjk
    rw [hf]
    congr 1
    refine if_congr ?_ rfl rfl
    rw [tile_word_iff h.val k.val h.isLt k.isLt, flat_word_toNat _ _ hvn hun]
  rw [Finset.sum_congr rfl fun h _ => key h, onehot_collapse f _ _ hJ]
  have hfJ : f ((varr m c (ix4 n d hb wb)).toNat * 176 + (uarr m c (ix4 n d hb wb)).toNat)
      = xarr m c (ix4 n cc (rowOf (varr m c (ix4 n d hb wb))) (colOf (uarr m c (ix4 n d hb wb)))) := by
    show (if hj : _ < 16896 then _ else 0) = _
    rw [dif_pos hJ]
    have er : (⟨((varr m c (ix4 n d hb wb)).toNat * 176 + (uarr m c (ix4 n d hb wb)).toNat) / 176, by omega⟩ : Fin 96)
        = rowOf (varr m c (ix4 n d hb wb)) := Fin.ext (by rw [rowOf_val hvn]; show _ / 176 = _; omega)
    have ec : (⟨((varr m c (ix4 n d hb wb)).toNat * 176 + (uarr m c (ix4 n d hb wb)).toNat) % 176, Nat.mod_lt _ (by decide)⟩ : Fin 176)
        = colOf (uarr m c (ix4 n d hb wb)) := Fin.ext (by rw [colOf_val hun]; show _ % 176 = _; omega)
    rw [er, ec]
  rw [hfJ]

/-! ## From the flushed blocks to the result array -/

/-- The specification's values in the kernel's layout, of the argument arrays. -/
abbrev G9arr (c : Dev nD) : FVec Ideal S6x336x28800 .f32 := G9 (xarr m c) (uarr m c) (varr m c) (wtarr m c)

/-- The output window's block index at a point: (depth, 0, voxel tile). -/
theorem out_index : ∀ t : Fin cfg0.N, win0_3.index t (0 : Fin 3) = t.val / 1100 ∧ win0_3.index t (1 : Fin 3) = 0
    ∧ win0_3.index t (2 : Fin 3) = t.val / 44 % 25 :=
  (by decide +kernel : ∀ t : Fin grid0.N, win0_3.index t (0 : Fin 3) = t.val / 1100 ∧ win0_3.index t (1 : Fin 3) = 0
    ∧ win0_3.index t (2 : Fin 3) = t.val / 44 % 25)

/-- WHAT A GROUP'S LAST POINT WRITES BACK is its block of the specification. -/
theorem flushed_eq (c : Dev nD) (hu : ∀ i, (uarr m c i).toNat < 176) (hv : ∀ i, (varr m c i).toNat < 96)
    (t : Fin cfg0.N) (hf : (cfg0.win 3).flush t = true) :
    (dats m 0 c).flushed 3 t = ((cfg0.win 3).blk t).view.read (Elt Ideal) (G9arr m c) := by
  have hN : cfg0.N = 6600 := N_0
  have htN := t.isLt
  have h43 : t.val % 44 = 43 := (flush0_3 t).mp hf
  obtain ⟨i0, i1, i2⟩ := out_index t
  show (cfg0.win 3).cut (grid0.coords t) ((dats m 0 c).after 3 t) = _
  rw [after0_3]
  funext j
  obtain ⟨z, cc, q, rfl⟩ : ∃ (z : Fin 1) (cc : Fin 336) (q : Fin 1152), j = ix3 z cc q := ⟨j 0, j 1, j 2, eq_ix3 j⟩
  obtain rfl : z = 0 := Subsingleton.elim _ _
  rw [View.read_apply]
  show (outsAt0 m c t.val t.isLt).1 (ix3 (0 : Fin 1) cc q)
    = G9 (xarr m c) (uarr m c) (varr m c) (wtarr m c) (((cfg0.win 3).blk t).view.emb (ix3 (0 : Fin 1) cc q))
  have e0 : ((((cfg0.win 3).blk t).view.emb (ix3 (0 : Fin 1) cc q)) 0).val = t.val / 1100 := by
    show win0_3.index t (0 : Fin 3) * 1 + 1 * 0 = _; rw [i0]; omega
  have e1 : ((((cfg0.win 3).blk t).view.emb (ix3 (0 : Fin 1) cc q)) 1).val = cc.val := by
    show win0_3.index t (1 : Fin 3) * 336 + 1 * cc.val = _; rw [i1]; omega
  have e2 : ((((cfg0.win 3).blk t).view.emb (ix3 (0 : Fin 1) cc q)) 2).val = t.val / 44 % 25 * 1152 + q.val := by
    show win0_3.index t (2 : Fin 3) * 1152 + 1 * q.val = _; rw [i2]; omega
  rw [G9_eq (xarr m c) (uarr m c) (varr m c) (wtarr m c) _ ⟨t.val / 1100, by omega⟩ cc
      ⟨(t.val / 44 % 25 * 1152 + q.val) / 120, by omega⟩ ⟨(t.val / 44 % 25 * 1152 + q.val) % 120, Nat.mod_lt _ (by decide)⟩
      e0.symm e1.symm (by rw [e2]) (by rw [e2]),
    out_eq m c t h43 cc q]
  exact group_sum m c hu hv (t.val / 44) (by omega) cc q _ _ _ (by show t.val / 1100 = t.val / 44 / 25; omega) rfl rfl

/-- Every index of the [6, 336, 28800] array is in the block of the last point of its depth's and voxel tile's group. -/
theorem cover (c : Dev nD) (i : S6x336x28800.Idx) :
    ∃ t : Fin cfg0.N, (cfg0.win 3).flush t = true ∧ i ∈ ((cfg0.win 3).blk t).view.set := by
  have hN : cfg0.N = 6600 := N_0
  have h0 : (i 0).val < 6 := (i 0).isLt
  have h1 : (i 1).val < 336 := (i 1).isLt
  have h2 : (i 2).val < 28800 := (i 2).isLt
  have ht : 44 * ((i 0).val * 25 + (i 2).val / 1152) + 43 < cfg0.N := by rw [hN]; omega
  obtain ⟨t, tv⟩ : ∃ t : Fin cfg0.N, t.val = 44 * ((i 0).val * 25 + (i 2).val / 1152) + 43 := ⟨⟨_, ht⟩, rfl⟩
  obtain ⟨i0, i1, i2⟩ := out_index t
  refine ⟨t, (flush0_3 t).mpr (by omega), ?_⟩
  show i ∈ ((View.whole main_v9).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [i0]; omega
  | ⟨1, _⟩ =>
    show win0_3.index t (1 : Fin 3) * 336 ≤ (i 1).val ∧ (i 1).val < win0_3.index t (1 : Fin 3) * 336 + 336
    rw [i1]; omega
  | ⟨2, _⟩ =>
    show win0_3.index t (2 : Fin 3) * 1152 ≤ (i 2).val ∧ (i 2).val < win0_3.index t (2 : Fin 3) * 1152 + 1152
    rw [i2]; omega

/-- So the kernel's result array ends holding the specification, in the kernel's layout. -/
theorem final (c : Dev nD) (hu : ∀ i, (uarr m c i).toNat < 176) (hv : ∀ i, (varr m c i).toNat < 96) :
    (dats m 0 c).arrAt 3 cfg0.N = G9arr m c :=
  (dats m 0 c).arrAt_eq_of_cover 3 (G9arr m c) (fun t hf => flushed_eq m c hu hv t hf) (cover c)

end Cert.VoxelProj.Accum

end
-- ==== Proof.KernelRun.lean ====
/-
  The idealized kernel's run, read: its result is the specification.

  After the region the program reshapes the kernel's [6, 336, 28800] array to [1, 2016, 240, 120]: output channel
  e = d·336 + c and voxel (hb, wb) read the kernel's array at depth d, channel c, position hb·120 + wb, which is the
  projection at (d, c, hb, wb) whichever way the position is split back into (hb, wb). Every weakly fair execution
  ends with the result array at the specification of the argument arrays and the argument arrays unchanged.
-/
import proofs.«413295_j31258771980988_3_alg».proof.Proof.Gen.KernelIdeal.Frame
import proofs.«413295_j31258771980988_3_alg».proof.Proof.Accum
import proofs.«413295_j31258771980988_3_alg».proof.Proof.Layout
import proofs.«413295_j31258771980988_3_alg».proof.Proof.Spec
import Idealize.ShloMosaic.Lib.StableHlo.Run

noncomputable section

namespace Cert.VoxelProj.KernelRun

open Cert.KernelIdeal Cert.KernelIdeal.Gen Idealize.ShloMosaic Idealize.ShloMosaic.TcCoe Idealize.ShloMosaic.ValueIdx
open Idealize.SL.Sem Cert.VoxelProj Cert.VoxelProj.Blocks Cert.VoxelProj.Accum

variable (m : (ℓ : Loc nD τ sig) → Buf (Elt Ideal) ℓ) (ρ : Dev nD → PrngReg)

/-- The specification of the argument arrays as the launch finds them. -/
abbrev result (c : Dev nD) : FVec Ideal S1x2016x240x120 .f32 := G (xarr m c) (uarr m c) (varr m c) (wtarr m c)

/-- The kernel-layout values unflattened are the result-layout values. -/
theorem unflatten_eq (c : Dev nD) (h : S6x336x28800.ShapeCasts S1x2016x240x120) :
    shapeCast S1x2016x240x120 (G9arr m c) h = result m c := by
  funext i
  obtain ⟨z, e, hb, wb, rfl⟩ : ∃ (z : Fin 1) (e : Fin 2016) (hb : Fin 240) (wb : Fin 120), i = ix4 z e hb wb :=
    ⟨i 0, i 1, i 2, i 3, eq_ix4 i⟩
  have he := e.isLt
  have hhb := hb.isLt
  have hwb := wb.isLt
  rw [outCast_apply (G9arr m c) h z e hb wb]
  refine (G9_eq (xarr m c) (uarr m c) (varr m c) (wtarr m c) _ ⟨e.val / 336, by omega⟩ ⟨e.val % 336, Nat.mod_lt _ (by decide)⟩ hb wb
      rfl rfl (by show hb.val = (hb.val * 120 + wb.val) / 120; omega) (by show wb.val = (hb.val * 120 + wb.val) % 120; omega)).trans ?_
  exact (G_eq (xarr m c) (uarr m c) (varr m c) (wtarr m c) _ ⟨e.val / 336, by omega⟩ ⟨e.val % 336, Nat.mod_lt _ (by decide)⟩ hb wb
      rfl rfl rfl rfl).symm

/-- What the program leaves in its result buffer: the reshape of the kernel's final array. -/
theorem tail_eq (c : Dev nD) (hu : ∀ i, (uarr m c i).toNat < 176) (hv : ∀ i, (varr m c i).toNat < 96) :
    Pipeline.afterTail₀ cfgs (dats m) 0 (V0 m) [hostOps1] c main_v10 = result m c := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.tc.devRef main_v9) = G9arr m c :=
    (Pipeline.withArrays_arr spec0 launch0.win.arr_inj c _ _ 3).trans (final m c hu hv)
  rw [hw]
  exact unflatten_eq m c _

/-- THE RUN, READ: every weakly fair execution of the idealized kernel's program ends with the result buffer at the
    specification of the argument arrays and the argument arrays unchanged. -/
theorem run (hu : ∀ c i, (uarr m c i).toNat < 176) (hv : ∀ c i, (varr m c i).toNat < 96) :
    θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans (tail_eq m c (hu c) (hv c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.VoxelProj.KernelRun

end
-- ==== Proof.lean ====
/-
  Both programs compute the voxel projection: for each depth d, feature channel c and voxel (hb, wb), the sum over the
  four cameras of the camera's feature at the pixel (v, u) its two index words name, times the camera's weight
  valid · density at the voxel — under the precondition that every float input is finite and every index word names a
  pixel (0 ≤ u < 176, 0 ≤ v < 96), outside which the reference's own indexing leaves its array.

  The reference gathers the pixel directly. The kernel flattens it to v·176 + u and recovers the feature as a product of
  the flattened map, tile by tile, with a selector matrix that holds the weight at that position and zero elsewhere,
  accumulated over cameras and tiles in a scratch block. Over the extended reals a feature times zero is zero and
  addition is associative and commutative, so the two agree element by element; finiteness is never used, the index
  range is what makes the flattened position name the same pixel.

  The three frames are the generated ones (the reference's is its run with the result dropped); the idealization
  rewrote nothing, so `preserves` is trivial; `algebraic` puts the kernel's run and the reference's run at the one
  specification of the argument arrays.
-/
import proofs.«413295_j31258771980988_3_alg».proof.Defs
import proofs.«413295_j31258771980988_3_alg».proof.Proof.Gen.Kernel
import proofs.«413295_j31258771980988_3_alg».proof.Proof.Gen.Kernel.Frame
import proofs.«413295_j31258771980988_3_alg».proof.Proof.Gen.KernelIdeal
import proofs.«413295_j31258771980988_3_alg».proof.Proof.Gen.KernelIdeal.Frame
import proofs.«413295_j31258771980988_3_alg».proof.Proof.Gen.ReferenceIdeal
import proofs.«413295_j31258771980988_3_alg».proof.Proof.Gen.ReferenceIdeal.Run
import proofs.«413295_j31258771980988_3_alg».proof.Proof.Gen.ReferenceIdeal.Read
import proofs.«413295_j31258771980988_3_alg».proof.Proof.Gen.Pre_finite_inputs
import proofs.«413295_j31258771980988_3_alg».proof.Proof.PreRange
import proofs.«413295_j31258771980988_3_alg».proof.Proof.RefSide
import proofs.«413295_j31258771980988_3_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments and satisfy the precondition, the kernel's run ends with its result at
    the projection of the argument arrays, and so does the reference's. -/
theorem algebraic : Cert.algebraic_KernelIdeal_ReferenceIdeal := by
  intro m ρ m' ρ' hpre hagree
  have hr : ∀ (c : Dev Cert.KernelIdeal.nD) i,
      (Cert.VoxelProj.Blocks.uarr m c i).toNat < 176 ∧ (Cert.VoxelProj.Blocks.varr m c i).toNat < 96 :=
    fun c i => Cert.VoxelProj.PreRange.range_of_pre _ _ _ _ _ (hpre c) i
  refine ⟨fun c => Cert.VoxelProj.KernelRun.result m c,
    Cert.VoxelProj.KernelRun.run m ρ (fun c i => (hr c i).1) (fun c i => (hr c i).2), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  exact Cert.VoxelProj.Ref.ref_eq _ _ _ _ _ (fun i => (hr c i).1) (fun i => (hr c i).2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
